-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4096x32 : Shape := ⟨3, ![8, 4096, 32]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096x32 : S_.BroadcastsInDim S8x4096x32 (![] : Fin 0 → Fin S8x4096x32.rank)
  reducesTo_S8x4096x32_S_d0_1_2 : S8x4096x32.ReducesTo [0, 1, 2] S_

variable [Facts]

def fn_part1 {F : FTy → Type} [FloatOps F] (main_v13 : IVec S_ 1) (main_v16 : IVec S8x4096x32 1) : IVec S_ 1 :=
  let main_c_5 : IVec S_ 1 := constantI S_ 1 1#1
  let main_v17 : IVec S_ 1 := (fun x v => Host.reduce IntOp.andi x v reducesTo_S8x4096x32_S_d0_1_2 h_S_) main_v16 main_c_5
  let main_v18 : IVec S_ 1 := andi main_v13 main_v17
  main_v18

def fn {F : FTy → Type} [FloatOps F] (main_arg0 : FVec F S8x4096x3 .f32) (main_arg1 : FVec F S8x4096x3 .f32) (main_arg2 : FVec F S8x4096x32 .f32) (main_arg3 : FVec F S8x4096x32 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x4096x32 .f32 := Host.absf main_arg2
  let main_cst_2 : FVec F S_ .f32 := constant S_ .f32 0x7F800000#32
  let main_v10 : FVec F S8x4096x32 .f32 := broadcastInDim S8x4096x32 ![] bcast_S_S8x4096x32 main_cst_2
  let main_v11 : IVec S8x4096x32 1 := cmpf .olt main_v9 main_v10
  let main_c_3 : IVec S_ 1 := constantI S_ 1 1#1
  let main_v12 : IVec S_ 1 := (fun x v => Host.reduce IntOp.andi x v reducesTo_S8x4096x32_S_d0_1_2 h_S_) main_v11 main_c_3
  let main_v13 : IVec S_ 1 := andi main_v8 main_v12
  let main_v14 : FVec F S8x4096x32 .f32 := Host.absf main_arg3
  let main_cst_4 : FVec F S_ .f32 := constant S_ .f32 0x7F800000#32
  let main_v15 : FVec F S8x4096x32 .f32 := broadcastInDim S8x4096x32 ![] bcast_S_S8x4096x32 main_cst_4
  let main_v16 : IVec S8x4096x32 1 := cmpf .olt main_v14 main_v15
  fn_part1 (F := F) main_v13 main_v16
-- ==== Kernel.lean ====
abbrev S8x4096x3 : Shape := ⟨3, ![8, 4096, 3]⟩
abbrev S8x4096x32 : Shape := ⟨3, ![8, 4096, 32]⟩
abbrev S8x4096x1 : Shape := ⟨3, ![8, 4096, 1]⟩
abbrev S8x1x4096 : Shape := ⟨3, ![8, 1, 4096]⟩
abbrev S1x4096x3 : Shape := ⟨3, ![1, 4096, 3]⟩
abbrev S1x128x3 : Shape := ⟨3, ![1, 128, 3]⟩
abbrev S1x4096x1 : Shape := ⟨3, ![1, 4096, 1]⟩
abbrev S1x1x128 : Shape := ⟨3, ![1, 1, 128]⟩
abbrev S4096x3 : Shape := ⟨2, ![4096, 3]⟩
abbrev S128x3 : Shape := ⟨2, ![128, 3]⟩
abbrev S3x128 : Shape := ⟨2, ![3, 128]⟩
abbrev S4096x128 : Shape := ⟨2, ![4096, 128]⟩
abbrev S4096 : Shape := ⟨1, ![4096]⟩
abbrev S4096x1 : Shape := ⟨2, ![4096, 1]⟩
abbrev S128 : Shape := ⟨1, ![128]⟩
abbrev S128x1 : Shape := ⟨2, ![128, 1]⟩
abbrev S1x128 : Shape := ⟨2, ![1, 128]⟩
abbrev S_ : Shape := ⟨0, ![]⟩
abbrev S8x1x1 : Shape := ⟨3, ![8, 1, 1]⟩
abbrev S1x4096x32 : Shape := ⟨3, ![1, 4096, 32]⟩
abbrev S1x1x1 : Shape := ⟨3, ![1, 1, 1]⟩
abbrev S4096x32 : Shape := ⟨2, ![4096, 32]⟩
abbrev S1 : Shape := ⟨1, ![1]⟩
abbrev S1x1 : Shape := ⟨2, ![1, 1]⟩

abbrev nBuf : Space → Nat
  | .hbm => 27
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x32, .f32⟩
  | .hbm, ⟨3, _⟩ => ⟨S8x4096x32, .f32⟩
  | .hbm, ⟨4, _⟩ => ⟨S8x4096x1, .f32⟩
  | .hbm, ⟨5, _⟩ => ⟨S8x1x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x128x3, .f32⟩
  | .local _ .vmem, ⟨3, _⟩ => ⟨S1x128x3, .f32⟩
  | .local _ .vmem, ⟨4, _⟩ => ⟨S1x4096x1, .f32⟩
  | .local _ .vmem, ⟨5, _⟩ => ⟨S1x4096x1, .f32⟩
  | .local _ .vmem, ⟨6, _⟩ => ⟨S1x1x128, .f32⟩
  | .local _ .vmem, ⟨7, _⟩ => ⟨S1x1x128, .f32⟩
  | .local _ .vmem, ⟨8, _⟩ => ⟨S1x4096x32, .f32⟩
  | .local _ .vmem, ⟨9, _⟩ => ⟨S1x4096x32, .f32⟩
  | .local _ .vmem, ⟨10, _⟩ => ⟨S1x4096x32, .f32⟩
  | .local _ .vmem, ⟨11, _⟩ => ⟨S1x4096x32, .f32⟩
  | .local _ .vmem, ⟨12, _⟩ => ⟨S1x1x1, .f32⟩
  | .local _ .vmem, ⟨13, _⟩ => ⟨S1x1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_cst_7 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_10 : BitVec 32 := 0#32
  let v28 : BitVec 1 := Scalar.cmpi .ne v27 c0_i32_10
  v28

def k0_cond2 (i : grid0.Coords) : BitVec 1 :=
  let arg1 : BitVec 32 := BitVec.ofNat 32 (i 1).val
  let c0_i32_11 : BitVec 32 := 0#32
  let v29 : BitVec 1 := Scalar.cmpi .ne arg1 c0_i32_11
  let v30 : BitVec 32 := Scalar.extui v29
  let c0_i32_12 : BitVec 32 := 0#32
  let v31 : BitVec 1 := Scalar.cmpi .ne v30 c0_i32_12
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  bitsLt_bf16_f32 : FTy.bits .bf16 < FTy.bits .f32
  transposes_S128x3_p1_0_S3x128 : S128x3.Transposes [1, 0] S3x128
  reduces_S4096x3_S4096 : S4096x3.Reduces [1] S4096
  shapeCasts_S4096_S4096x1 : S4096.ShapeCasts S4096x1
  reduces_S128x3_S128 : S128x3.Reduces [1] S128
  shapeCasts_S128_S128x1 : S128.ShapeCasts S128x1
  transposes_S128x1_p1_0_S1x128 : S128x1.Transposes [1, 0] S1x128
  broadcasts_S4096x1_S4096x128 : S4096x1.Broadcasts S4096x128
  broadcasts_S1x128_S4096x128 : S1x128.Broadcasts S4096x128
  reduces_S4096x128_S4096 : S4096x128.Reduces [1] S4096
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  reduces_S4096x128_S128 : S4096x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S8x4096x1_S_d0_1_2 : S8x4096x1.ReducesTo [0, 1, 2] S_
  h_S_ : 0 < S_.numel
  reducesTo_S8x1x4096_S_d0_1_2 : S8x1x4096.ReducesTo [0, 1, 2] S_
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  reduces_S4096x32_S4096 : S4096x32.Reduces [1] S4096
  broadcasts_S4096x1_S4096x32 : S4096x1.Broadcasts S4096x32
  reduces_S4096x1_S1 : S4096x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S8x1x1_S_d0_1_2 : S8x1x1.ReducesTo [0, 1, 2] S_
  dot_S4096x3_S3x128_S4096x128_1_0_0_1_n_n_wf : DotDims.WF S4096x3 S3x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3.size a ≤ S8x4096x3.size a
  hwx0_1 : ∀ i : grid0.Coords, EltTy.bits .f32 = 32 ∨ (Rect.block (s := S8x4096x3) S1x128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S8x4096x1.size a
  hwx0_2 : ∀ i : grid0.Coords, EltTy.bits .f32 = 32 ∨ (Rect.block (s := S8x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x4096.size a
  hwx0_3 : ∀ i : grid0.Coords, EltTy.bits .f32 = 32 ∨ (Rect.block (s := S8x1x4096) S1x1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x32.size a ≤ S8x4096x32.size a
  hwx1_0 : ∀ i : grid1.Coords, EltTy.bits .f32 = 32 ∨ (Rect.block (s := S8x4096x32) S1x4096x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x32.size a ≤ S8x4096x32.size a
  hwx1_1 : ∀ i : grid1.Coords, EltTy.bits .f32 = 32 ∨ (Rect.block (s := S8x4096x32) S1x4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S8x1x1.size a
  hwx1_2 : ∀ i : grid1.Coords, EltTy.bits .f32 = 32 ∨ (Rect.block (s := S8x1x1) S1x1x1.size (cc1_transform_2 i) (hinb1_2 i)).WholeWords (EltTy.packing .f32)

variable [Facts₀]

def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_arg2) S1x4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x3 : Shape := ⟨3, ![8, 4096, 3]⟩
abbrev S8x4096x32 : Shape := ⟨3, ![8, 4096, 32]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩
abbrev S8x1x4096 : Shape := ⟨3, ![8, 1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x32, .f32⟩
  | .hbm, ⟨3, _⟩ => ⟨S8x4096x32, .f32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S8x4096x3, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S8x4096x4096, .f32⟩
  | .hbm, ⟨13, _⟩ => ⟨S8x1x4096, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x4096x32, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x32, .f32⟩
  | .hbm, ⟨47, _⟩ => ⟨S8x4096x32, .f32⟩
  | .hbm, ⟨48, _⟩ => ⟨S8x4096x32, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x32, .f32⟩
  | .hbm, ⟨57, _⟩ => ⟨S8x4096x32, .f32⟩
  | .hbm, ⟨58, _⟩ => ⟨S8x4096x32, .f32⟩
  | .hbm, ⟨59, _⟩ => ⟨S_, .f32⟩
  | .hbm, ⟨60, _⟩ => ⟨S8x4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_cst_12 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_cst_14 : Ref sig .tc := ⟨.hbm, 65, rfl⟩
abbrev main_v38 : Ref sig .tc := ⟨.hbm, 66, rfl⟩
abbrev main_cst_15 : Ref sig .tc := ⟨.hbm, 67, rfl⟩
abbrev main_v39 : Ref sig .tc := ⟨.hbm, 68, rfl⟩
abbrev main_cst_16 : Ref sig .tc := ⟨.hbm, 69, rfl⟩
abbrev main_v40 : Ref sig .tc := ⟨.hbm, 70, rfl⟩
abbrev main_v41 : Ref sig .tc := ⟨.hbm, 71, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  transposes_S8x4096x1_S8x1x4096_0_2_1 : S8x4096x1.Transposes [0, 2, 1] S8x1x4096
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  reducesTo_S8x4096x32_S8x4096_d2 : S8x4096x32.ReducesTo [2] S8x4096
  bcast_S_S8x4096x1 : S_.BroadcastsInDim S8x4096x1 (![] : Fin 0 → Fin S8x4096x1.rank)
  bcast_S8x4096x1_S8x4096x32_0_1_2 : S8x4096x1.BroadcastsInDim S8x4096x32 (![0, 1, 2] : Fin 3 → Fin S8x4096x32.rank)
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.K.Data.lean ====
/-
  The proof data of the two pallas_calls, stated at the buffer contents `V` a region is entered from.

  Region 0 (the chamfer kernel, grid 8 × 32, point t = (b, k)): the x-window holds batch b's 4096 points, the
  y-window the k-th tile of 128 points of batch b.  The output window 2 (per-query minimum) keeps ONE block per
  batch over the 32 tiles: after the body at tile k it holds the minimum over tiles 0..k of the tile's row
  minima — the first tile stores its row minima, each later tile stores the pointwise minimum of what the
  block held and its own row minima.  The output window 3 (per-key minimum) holds the tile's column minima.

  Region 1 (the cosine kernel, grid 8): both feature windows hold batch b's 4096 × 32 block, the output window
  the batch's mean cosine.
-/
import proofs.«151054_j3006477107870_1_alg».proof.Proof.Gen.Kernel.Launch
import proofs.«151054_j3006477107870_1_alg».proof.Proof.Gen.Kernel.Skeleton
import proofs.«151054_j3006477107870_1_alg».proof.Proof.Gen.Kernel.Points
import Idealize.ShloMosaic.Lib.Pipeline.FrameBody
import Idealize.ShloMosaic.Lib.Pipeline.Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running per-query minimum after the body at position `n`: at the first tile of a batch (n ≡ 0 mod 32)
    the tile's row minima, at a later tile the pointwise minimum of what position n − 1 left and the tile's
    row minima. -/
def acc0 (c : Dev nD) : (n : ℕ) → n < cfg0.N → Vec F S1x4096x1 .f32
  | 0, hn => k0_pay4 (iblk0 V c 0 ⟨0, hn⟩) (iblk0 V c 1 ⟨0, hn⟩)
  | n + 1, hn =>
    if (n + 1) % 32 = 0 then k0_pay4 (iblk0 V c 0 ⟨n + 1, hn⟩) (iblk0 V c 1 ⟨n + 1, hn⟩)
    else k0_pay5 (iblk0 V c 0 ⟨n + 1, hn⟩) (iblk0 V c 1 ⟨n + 1, hn⟩) (acc0 c n (Nat.lt_of_succ_lt hn))

/-- At the first tile of a batch: the tile's row minima. -/
theorem acc0_first (c : Dev nD) (t : Fin cfg0.N) (h0 : t.val % 32 = 0) :
    acc0 V c t.val t.isLt = k0_pay4 (iblk0 V c 0 t) (iblk0 V c 1 t) := by
  obtain ⟨n, hn⟩ := t
  cases n with
  | zero => rfl
  | succ n => exact (if_pos h0).trans rfl

/-- At a later tile: the minimum with what the tile before left. -/
theorem acc0_later (c : Dev nD) (t : Fin cfg0.N) (h0 : ¬ t.val % 32 = 0) :
    acc0 V c t.val t.isLt = k0_pay5 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
    | ⟨3, _⟩ => k0_pay1 (k0_pay6 (iblk0 V c 0 t) (iblk0 V c 1 t))
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem after0_3 (c : Dev nD) (t : Fin cfg0.N) :
    (dat0 V c).after 3 t = k0_pay1 (k0_pay6 (iblk0 V c 0 t) (iblk0 V c 1 t)) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 0 t) (iblk1 V c 1 t) := by dsimp only [dat1]

end Cert.Kernel.Fr

end
-- ==== Proof.K.Fold.lean ====
/-
  The contents of the core's unscoped buffers at each boundary of @main (region 0, nine host operations,
  region 1, eleven host operations), as a fold from the launch memory `m`: after a region its result arrays hold
  what the write-backs leave (the proof data's `arrAt` at the last point) and every other buffer what it held;
  a host stretch applies its operations.  The four arguments are never written.
-/
import proofs.«151054_j3006477107870_1_alg».proof.Proof.K.Data
import proofs.«151054_j3006477107870_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## The buffer contents at each boundary -/

/-- Core `c`'s buffers at launch (region 0's entry). -/
abbrev W0 : Dev nD → Valuation τ sig (Elt F) := fun c b => m ((c : Dev nD), b)
/-- The same read at the TensorCore's references. -/
abbrev Vr0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the nine host operations (region 1's entry). -/
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)
/-- After the eleven host operations: the end. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((dat0 (Vr0 m) c).arrAt_in 0 rfl _).trans (A_eq0 (Vr0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 1).trans (((dat0 (Vr0 m) c).arrAt_in 1 rfl _).trans (A_eq0 (Vr0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := (W3_arr m c 0).trans (((dat1 (Vr2 m) c).arrAt_in 0 rfl _).trans (A_eq1 (Vr2 m) c 0))
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := (W3_arr m c 1).trans (((dat1 (Vr2 m) c).arrAt_in 1 rfl _).trans (A_eq1 (Vr2 m) c 1))
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

/-! ## The regions' input arrays are the arguments -/

theorem Vr0_main_arg0 (c : Dev nD) : Vr0 m c main_arg0 = m ((c : Thread nD τ).loc main_arg0) := rfl
theorem Vr0_main_arg1 (c : Dev nD) : Vr0 m c main_arg1 = m ((c : Thread nD τ).loc main_arg1) := rfl
theorem Vr2_main_arg2 (c : Dev nD) : Vr2 m c main_arg2 = m ((c : Thread nD τ).loc main_arg2) :=
  calc W2 m c (Proc.devRef .tc main_arg2)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem Vr2_main_arg3 (c : Dev nD) : Vr2 m c main_arg3 = m ((c : Thread nD τ).loc main_arg3) :=
  calc W2 m c (Proc.devRef .tc main_arg3)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

end Cert.Kernel.Fr

end
-- ==== Proof.K.Chamfer.lean ====
/-
  The body obligation of region 0 (the chamfer kernel).
-/
import proofs.«151054_j3006477107870_1_alg».proof.Proof.K.Data
import Idealize.ShloMosaic.Lib.Tactic
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-block accesses of a whole staging buffer -/

/-- The zero offset of a rank-3 block. -/
theorem off3 : (![0, 0, 0] : Fin 3 → Nat) = fun _ => 0 := by
  funext a; fin_cases a <;> rfl

/-- A load of the whole block of a whole buffer reads the buffer's contents. -/
theorem readAt_whole {S : Shape} {e : EltTy} (m : Memref sig .tc .vmem S e) (hm : m.IsWhole) {off : Fin S.rank → Nat}
    (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

/-- One store of the whole block leaves its payload, whatever the buffer held. -/
theorem read_store_whole {S : Shape} {e : EltTy} (m : Memref sig .tc .vmem S e) (f : m.view.ty.Contents (Elt F))
    {off : Fin S.rank → Nat} (h : off = fun _ => 0) (inb : ∀ a, off a + S.size a ≤ S.size a) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-! ## The branch on the tile coordinate -/

/-- The first branch is taken exactly at the first tile of a batch (k = 0). -/
theorem cond1_iff (i : grid0.Coords) : k0_cond1 i = 1#1 ↔ (i 1).val = 0 := by
  have h : ∀ k : Fin 32, (Scalar.cmpi .ne (Scalar.extui (Scalar.cmpi .eq (BitVec.ofNat 32 k.val) 0#32)) 0#32 = 1#1) ↔ k.val = 0 := by
    decide
  exact h (i 1)

/-- The second branch is taken exactly at the later tiles (k ≠ 0). -/
theorem cond2_iff (i : grid0.Coords) : k0_cond2 i = 1#1 ↔ ¬ (i 1).val = 0 := by
  have h : ∀ k : Fin 32, (Scalar.cmpi .ne (Scalar.extui (Scalar.cmpi .ne (BitVec.ofNat 32 k.val) 0#32)) 0#32 = 1#1) ↔ ¬ k.val = 0 := by
    decide
  exact h (i 1)

/-- Exactly one of the two branches is taken at every point. -/
theorem cond2_iff_not_cond1 (i : grid0.Coords) : k0_cond2 i = 1#1 ↔ ¬ k0_cond1 i = 1#1 := by
  rw [cond1_iff, cond2_iff]

/-- So no window is idle at any point: the per-query block is stored by one branch or the other. -/
theorem live0 (w : Fin 4) (i : grid0.Coords) : cfg0.idle w i = false := by
  match w with
  | ⟨0, _⟩ => rfl
  | ⟨1, _⟩ => rfl
  | ⟨3, _⟩ => rfl
  | ⟨2, _⟩ =>
    show (!(k0_cond1 i == 1#1) && !(k0_cond2 i == 1#1)) = false
    by_cases h : k0_cond1 i = 1#1
    · rw [beq_iff_eq.mpr h]; rfl
    · rw [beq_iff_eq.mpr ((cond2_iff_not_cond1 i).mpr h)]; simp

/-- In the grid's order the tile coordinate of point t is t mod 32. -/
theorem hcond1 : ∀ t : Fin cfg0.N, k0_cond1 (grid0.coords t) = 1#1 ↔ t.val % 32 = 0 :=
  (by decide +kernel : ∀ t : Fin grid0.N, k0_cond1 (grid0.coords t) = 1#1 ↔ t.val % 32 = 0)

/-! ## The body's triple, on any whole staging buffers, case by case -/

set_option maxHeartbeats 1000000 in
/-- At the first tile of a batch: the inputs' buffers at x0, x1, the outputs' at anything; the per-query buffer ends at the
    tile's row minima, the per-key buffer at the tile's column minima, the inputs as they were. -/
theorem sound_kernel0_first (c : Dev nD) (E : Set ℕ) (i : grid0.Coords)
    (arg2 : Memref sig .tc .vmem S1x4096x3 .f32) (harg2 : arg2.IsWhole) (arg3 : Memref sig .tc .vmem S1x128x3 .f32) (harg3 : arg3.IsWhole)
    (arg4 : Memref sig .tc .vmem S1x4096x1 .f32) (harg4 : arg4.IsWhole) (arg5 : Memref sig .tc .vmem S1x1x128 .f32) (harg5 : arg5.IsWhole)
    (h1 : k0_cond1 i = 1#1) (h2 : ¬ k0_cond2 i = 1#1)
    (x0 : Vec F S1x4096x3 .f32) (x1 : Vec F S1x128x3 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay4 x0 x1) ∗ owns (c : Thread nD τ) arg5 fullShare (k0_pay1 (k0_pay6 x0 x1))) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_store_whole arg4 _ off3, readAt_whole arg2 harg2 off3, readAt_whole arg3 harg3 off3]
  iexists _; isplitr
  swap; · iexact H3
  ipureintro
  unfold sound_kernel0_first.sl.r
  rw [read_store_whole arg5 _ off3, readAt_whole arg2 harg2 off3, readAt_whole arg3 harg3 off3]

set_option maxHeartbeats 1000000 in
/-- At a later tile: the per-query buffer at a; it ends at the pointwise minimum of a and the tile's row minima. -/
theorem sound_kernel0_later (c : Dev nD) (E : Set ℕ) (i : grid0.Coords)
    (arg2 : Memref sig .tc .vmem S1x4096x3 .f32) (harg2 : arg2.IsWhole) (arg3 : Memref sig .tc .vmem S1x128x3 .f32) (harg3 : arg3.IsWhole)
    (arg4 : Memref sig .tc .vmem S1x4096x1 .f32) (harg4 : arg4.IsWhole) (arg5 : Memref sig .tc .vmem S1x1x128 .f32) (harg5 : arg5.IsWhole)
    (h1 : ¬ k0_cond1 i = 1#1) (h2 : k0_cond2 i = 1#1)
    (x0 : Vec F S1x4096x3 .f32) (x1 : Vec F S1x128x3 .f32) (a : Vec F S1x4096x1 .f32) (K : PUnit → sProp 𝕄) :
    iprop(owns (c : Thread nD τ) arg2 fullShare x0 ∗ owns (c : Thread nD τ) arg3 fullShare x1
        ∗ owns (c : Thread nD τ) arg4 fullShare a ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay5 x0 x1 a) ∗ owns (c : Thread nD τ) arg5 fullShare (k0_pay1 (k0_pay6 x0 x1))) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_store_whole arg4 _ off3, readAt_whole arg2 harg2 off3, readAt_whole arg3 harg3 off3, readAt_whole arg4 harg4 off3]
  iexists _; isplitr
  swap; · iexact H3
  ipureintro
  unfold sound_kernel0_later.sl.r
  rw [read_store_whole arg5 _ off3, readAt_whole arg2 harg2 off3, readAt_whole arg3 harg3 off3]

/-! ## What the staging buffers hold when the body runs -/

/-- The x-window's buffer holds batch b's points at every point (fetched at the batch's first tile, kept after). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The y-window's buffer holds the point's tile (fetched at every point). -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At a later tile the per-query buffer holds the running minimum the tile before left: the block is written back
    only after a batch's last tile, and the tile before is not one. -/
theorem before0_2_later (c : Dev nD) (t : Fin cfg0.N) (h0 : ¬ t.val % 32 = 0) (d) :
    (dat0 V c).before 2 t d = acc0 V c (t.val - 1) (Nat.lt_of_le_of_lt (Nat.sub_le _ _) t.isLt) := by
  rw [Dat.before_out_kept _ 2 rfl t (by omega)
    (Bool.eq_false_iff.mpr fun h => by have := (flush0_2 _).mp h; dsimp only at this; omega)
    (live0 2) (fun _ _ => rfl)]
  exact after0_2 V c _

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' buffers hold their blocks; at a batch's first tile the first case applies to
    whatever the output buffers hold, at a later tile the second, the per-query buffer at the running minimum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 32 = 0
  · have hc1 : k0_cond1 (grid0.coords t) = 1#1 := (hcond1 t).mpr h0
    have hc2 : ¬ k0_cond2 (grid0.coords t) = 1#1 := fun h => (cond2_iff_not_cond1 _).mp h hc1
    rw [acc0_first V c t h0]
    iintro ⟨HΦ, Ho, ⟨%d0, H0⟩, ⟨%d1, H1⟩, ⟨%d2, H2⟩, ⟨%d3, H3⟩⟩
    iapply (sound_kernel0_first c Set.univ (grid0.coords t) _ _ _ _ _ _ _ _ hc1 hc2 (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc1 : ¬ k0_cond1 (grid0.coords t) = 1#1 := fun h => h0 ((hcond1 t).mp h)
    have hc2 : k0_cond2 (grid0.coords t) = 1#1 := (cond2_iff_not_cond1 _).mpr hc1
    rw [acc0_later V c t h0]
    simp only [before0_2_later V c t h0]
    iintro ⟨HΦ, Ho, ⟨%d0, H0⟩, ⟨%d1, H1⟩, ⟨%d2, H2⟩, ⟨%d3, H3⟩⟩
    iapply (sound_kernel0_later c Set.univ (grid0.coords t) _ _ _ _ _ _ _ _ hc1 hc2 (iblk0 V c 0 t) (iblk0 V c 1 t) _ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation of pipeline 0, at every point. -/
theorem body_obligation0 (c : Dev nD) : BodyObligation (dat0 (F := F) V c) (defs₀ (F := F)) Variants.none () Set.univ := fun t => by
  rw [bigSep_W0, bigSep_W0]
  rw [live0 2 (cfg0.grid.coords t)]
  exact sound_body0 V c t

end Cert.Kernel.Fr

end
-- ==== Proof.K.Cosine.lean ====
/-
  The body obligation of region 1 (the cosine kernel).
-/
import proofs.«151054_j3006477107870_1_alg».proof.Proof.K.Data
import Idealize.ShloMosaic.Lib.Pipeline.Value
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current buffer holds the window's block at the point, at every point, fetched there or not:
    the window is an uncut input that the body leaves in place, and the configuration states no idle point of it. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Likewise input window 1's. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's triple -/

/-- The offsets of a rank-3 rectangle at the origin are the constant zero. -/
theorem zeros3 : (![0, 0, 0] : Fin 3 → ℕ) = fun _ => 0 := funext fun a => by fin_cases a <;> rfl

set_option maxHeartbeats 1000000 in
/-- The kernel on whole buffers: the two input buffers at contents `x0`, `x1` and the output buffer at anything
    run to the continuation with the input buffers unchanged and the output buffer holding the store's payload
    at `x0` and `x1`.  Both input loads read a whole buffer through the whole-shape rectangle at the origin, so
    they read `x0` and `x1` themselves; the load of the output buffer is unused; the one store writes the whole
    1 × 1 × 1 buffer, so what it leaves is its payload whatever the buffer held. -/
theorem sound_kernel1 (c : Dev nD) (E : Set ℕ) (i : grid1.Coords)
    (arg1 : Memref sig .tc .vmem S1x4096x32 .f32) (harg1 : arg1.IsWhole)
    (arg2 : Memref sig .tc .vmem S1x4096x32 .f32) (harg2 : arg2.IsWhole)
    (arg3 : Memref sig .tc .vmem S1x1x1 .f32) (harg3 : arg3.IsWhole)
    (x0 x1 : Vec F S1x4096x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k1_pay1 x0 x1)) -∗ K ⟨⟩))
      ⊢ wp frame (wpE (defs₀ (F := F)) Variants.none c none) E (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0
  subst hf1
  sl_exec
  sl_step
  -- a whole-buffer load at the origin reads the buffer
  have h0 : View.readAt (Elt F) arg1.view
      (Rect.unit ![0, 0, 0] S1x4096x32.size inb_S1x4096x32_S1x4096x32_0_0_0).toLoadRect f0 = View.read (Elt F) arg1.view f0 :=
    (View.readAt_eq_ld arg1.view f0 _).trans (View.ld_unit_zero (S := S1x4096x32) zeros3 _ _)
  have h1 : View.readAt (Elt F) arg2.view
      (Rect.unit ![0, 0, 0] S1x4096x32.size inb_S1x4096x32_S1x4096x32_0_0_0).toLoadRect f1 = View.read (Elt F) arg2.view f1 :=
    (View.readAt_eq_ld arg2.view f1 _).trans (View.ld_unit_zero (S := S1x4096x32) zeros3 _ _)
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads back as the store's payload
  rw [View.read_writes_eq_canon _ _ _ (fun y => ⟨_, List.mem_singleton_self _,
      View.mem_set_unit_zero (S := S1x1x1) zeros3 inb_S1x1x1_S1x1x1_0_0_0 y⟩),
    View.canon_unit_zero (S := S1x1x1) zeros3 inb_S1x1x1_S1x1x1_0_0_0, h0, h1]

/-! ## The body obligation, at a generic point -/

/-- What the body is called with at point `t`: the invariant, the core's debts, and each window's current buffer
    at what the pipeline hands it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the kernel's triple applies at those blocks;
    the output buffer is handed over at whatever it held; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/-
  The run of @main: region 0, nine host operations, region 1, eleven host operations.

  The contents of the core's unscoped buffers at each boundary are a fold from the launch memory `m`:
  after region 0 its two result arrays hold what the write-backs leave (the proof data's `arrAt` at the last
  point), every other buffer what it held; a host stretch applies its operations; region 1 likewise.  Each
  region is entered from all unscoped buffers held at the boundary's contents beside the core's generator
  register and its (empty) dues; its arrays are split out, the region runs by its body obligation, and the
  arrays are put back at their final contents.  The launch then reads every unscoped buffer of the final
  memory at the last boundary's contents: the four arguments are never written, and the result is the last
  host stretch's value.
-/
import proofs.«151054_j3006477107870_1_alg».proof.Proof.K.Fold
import proofs.«151054_j3006477107870_1_alg».proof.Proof.K.Chamfer
import proofs.«151054_j3006477107870_1_alg».proof.Proof.K.Cosine
import proofs.«151054_j3006477107870_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (Vr0 m) c
  | ⟨1, _⟩ => fun c => dat1 (Vr2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev msegs : List (Pipeline.Seg (pcfgs (F := F)) adm' (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main is the run of the segments. -/
theorem main_run (c : Dev nD) : main (F := F) c = Pipeline.Seg.run (msegs m) := (main_chain c).trans (by chain_rfl)

set_option backward.isDefEq.respectTransparency.types false in
/-- From any memory with zero counters every weakly fair execution of @main terminates, nothing faulting, and the
    final memory holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v12) = W4 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v12 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.Kernel.Fr

end
-- ==== Proof.KI.Data.lean ====
/-
  The proof data of the two pallas_calls, stated at the buffer contents `V` a region is entered from.

  Region 0 (the chamfer kernel, grid 8 × 32, point t = (b, k)): the x-window holds batch b's 4096 points, the
  y-window the k-th tile of 128 points of batch b.  The output window 2 (per-query minimum) keeps ONE block per
  batch over the 32 tiles: after the body at tile k it holds the minimum over tiles 0..k of the tile's row
  minima — the first tile stores its row minima, each later tile stores the pointwise minimum of what the
  block held and its own row minima.  The output window 3 (per-key minimum) holds the tile's column minima.

  Region 1 (the cosine kernel, grid 8): both feature windows hold batch b's 4096 × 32 block, the output window
  the batch's mean cosine.
-/
import proofs.«151054_j3006477107870_1_alg».proof.Proof.Gen.KernelIdeal.Launch
import proofs.«151054_j3006477107870_1_alg».proof.Proof.Gen.KernelIdeal.Skeleton
import proofs.«151054_j3006477107870_1_alg».proof.Proof.Gen.KernelIdeal.Points
import Idealize.ShloMosaic.Lib.Pipeline.FrameBody
import Idealize.ShloMosaic.Lib.Pipeline.Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running per-query minimum after the body at position `n`: at the first tile of a batch (n ≡ 0 mod 32)
    the tile's row minima, at a later tile the pointwise minimum of what position n − 1 left and the tile's
    row minima. -/
def acc0 (c : Dev nD) : (n : ℕ) → n < cfg0.N → Vec F S1x4096x1 .f32
  | 0, hn => k0_pay4 (iblk0 V c 0 ⟨0, hn⟩) (iblk0 V c 1 ⟨0, hn⟩)
  | n + 1, hn =>
    if (n + 1) % 32 = 0 then k0_pay4 (iblk0 V c 0 ⟨n + 1, hn⟩) (iblk0 V c 1 ⟨n + 1, hn⟩)
    else k0_pay5 (iblk0 V c 0 ⟨n + 1, hn⟩) (iblk0 V c 1 ⟨n + 1, hn⟩) (acc0 c n (Nat.lt_of_succ_lt hn))

/-- At the first tile of a batch: the tile's row minima. -/
theorem acc0_first (c : Dev nD) (t : Fin cfg0.N) (h0 : t.val % 32 = 0) :
    acc0 V c t.val t.isLt = k0_pay4 (iblk0 V c 0 t) (iblk0 V c 1 t) := by
  obtain ⟨n, hn⟩ := t
  cases n with
  | zero => rfl
  | succ n => exact (if_pos h0).trans rfl

/-- At a later tile: the minimum with what the tile before left. -/
theorem acc0_later (c : Dev nD) (t : Fin cfg0.N) (h0 : ¬ t.val % 32 = 0) :
    acc0 V c t.val t.isLt = k0_pay5 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
    | ⟨3, _⟩ => k0_pay1 (k0_pay6 (iblk0 V c 0 t) (iblk0 V c 1 t))
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem after0_3 (c : Dev nD) (t : Fin cfg0.N) :
    (dat0 V c).after 3 t = k0_pay1 (k0_pay6 (iblk0 V c 0 t) (iblk0 V c 1 t)) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 0 t) (iblk1 V c 1 t) := by dsimp only [dat1]

end Cert.KernelIdeal.Fr

end
-- ==== Proof.KI.Fold.lean ====
/-
  The contents of the core's unscoped buffers at each boundary of @main (region 0, nine host operations,
  region 1, eleven host operations), as a fold from the launch memory `m`: after a region its result arrays hold
  what the write-backs leave (the proof data's `arrAt` at the last point) and every other buffer what it held;
  a host stretch applies its operations.  The four arguments are never written.
-/
import proofs.«151054_j3006477107870_1_alg».proof.Proof.KI.Data
import proofs.«151054_j3006477107870_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The buffer contents at each boundary -/

/-- Core `c`'s buffers at launch (region 0's entry). -/
abbrev W0 : Dev nD → Valuation τ sig (Elt F) := fun c b => m ((c : Dev nD), b)
/-- The same read at the TensorCore's references. -/
abbrev Vr0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the nine host operations (region 1's entry). -/
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)
/-- After the eleven host operations: the end. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((dat0 (Vr0 m) c).arrAt_in 0 rfl _).trans (A_eq0 (Vr0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 1).trans (((dat0 (Vr0 m) c).arrAt_in 1 rfl _).trans (A_eq0 (Vr0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := (W3_arr m c 0).trans (((dat1 (Vr2 m) c).arrAt_in 0 rfl _).trans (A_eq1 (Vr2 m) c 0))
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := (W3_arr m c 1).trans (((dat1 (Vr2 m) c).arrAt_in 1 rfl _).trans (A_eq1 (Vr2 m) c 1))
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

/-! ## The regions' input arrays are the arguments -/

theorem Vr0_main_arg0 (c : Dev nD) : Vr0 m c main_arg0 = m ((c : Thread nD τ).loc main_arg0) := rfl
theorem Vr0_main_arg1 (c : Dev nD) : Vr0 m c main_arg1 = m ((c : Thread nD τ).loc main_arg1) := rfl
theorem Vr2_main_arg2 (c : Dev nD) : Vr2 m c main_arg2 = m ((c : Thread nD τ).loc main_arg2) :=
  calc W2 m c (Proc.devRef .tc main_arg2)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem Vr2_main_arg3 (c : Dev nD) : Vr2 m c main_arg3 = m ((c : Thread nD τ).loc main_arg3) :=
  calc W2 m c (Proc.devRef .tc main_arg3)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

end Cert.KernelIdeal.Fr

end
-- ==== Proof.KI.Chamfer.lean ====
/-
  The body obligation of region 0 (the chamfer kernel).
-/
import proofs.«151054_j3006477107870_1_alg».proof.Proof.KI.Data
import Idealize.ShloMosaic.Lib.Tactic
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-block accesses of a whole staging buffer -/

/-- The zero offset of a rank-3 block. -/
theorem off3 : (![0, 0, 0] : Fin 3 → Nat) = fun _ => 0 := by
  funext a; fin_cases a <;> rfl

/-- A load of the whole block of a whole buffer reads the buffer's contents. -/
theorem readAt_whole {S : Shape} {e : EltTy} (m : Memref sig .tc .vmem S e) (hm : m.IsWhole) {off : Fin S.rank → Nat}
    (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

/-- One store of the whole block leaves its payload, whatever the buffer held. -/
theorem read_store_whole {S : Shape} {e : EltTy} (m : Memref sig .tc .vmem S e) (f : m.view.ty.Contents (Elt F))
    {off : Fin S.rank → Nat} (h : off = fun _ => 0) (inb : ∀ a, off a + S.size a ≤ S.size a) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-! ## The branch on the tile coordinate -/

/-- The first branch is taken exactly at the first tile of a batch (k = 0). -/
theorem cond1_iff (i : grid0.Coords) : k0_cond1 i = 1#1 ↔ (i 1).val = 0 := by
  have h : ∀ k : Fin 32, (Scalar.cmpi .ne (Scalar.extui (Scalar.cmpi .eq (BitVec.ofNat 32 k.val) 0#32)) 0#32 = 1#1) ↔ k.val = 0 := by
    decide
  exact h (i 1)

/-- The second branch is taken exactly at the later tiles (k ≠ 0). -/
theorem cond2_iff (i : grid0.Coords) : k0_cond2 i = 1#1 ↔ ¬ (i 1).val = 0 := by
  have h : ∀ k : Fin 32, (Scalar.cmpi .ne (Scalar.extui (Scalar.cmpi .ne (BitVec.ofNat 32 k.val) 0#32)) 0#32 = 1#1) ↔ ¬ k.val = 0 := by
    decide
  exact h (i 1)

/-- Exactly one of the two branches is taken at every point. -/
theorem cond2_iff_not_cond1 (i : grid0.Coords) : k0_cond2 i = 1#1 ↔ ¬ k0_cond1 i = 1#1 := by
  rw [cond1_iff, cond2_iff]

/-- So no window is idle at any point: the per-query block is stored by one branch or the other. -/
theorem live0 (w : Fin 4) (i : grid0.Coords) : cfg0.idle w i = false := by
  match w with
  | ⟨0, _⟩ => rfl
  | ⟨1, _⟩ => rfl
  | ⟨3, _⟩ => rfl
  | ⟨2, _⟩ =>
    show (!(k0_cond1 i == 1#1) && !(k0_cond2 i == 1#1)) = false
    by_cases h : k0_cond1 i = 1#1
    · rw [beq_iff_eq.mpr h]; rfl
    · rw [beq_iff_eq.mpr ((cond2_iff_not_cond1 i).mpr h)]; simp

/-- In the grid's order the tile coordinate of point t is t mod 32. -/
theorem hcond1 : ∀ t : Fin cfg0.N, k0_cond1 (grid0.coords t) = 1#1 ↔ t.val % 32 = 0 :=
  (by decide +kernel : ∀ t : Fin grid0.N, k0_cond1 (grid0.coords t) = 1#1 ↔ t.val % 32 = 0)

/-! ## The body's triple, on any whole staging buffers, case by case -/

set_option maxHeartbeats 1000000 in
/-- At the first tile of a batch: the inputs' buffers at x0, x1, the outputs' at anything; the per-query buffer ends at the
    tile's row minima, the per-key buffer at the tile's column minima, the inputs as they were. -/
theorem sound_kernel0_first (c : Dev nD) (E : Set ℕ) (i : grid0.Coords)
    (arg2 : Memref sig .tc .vmem S1x4096x3 .f32) (harg2 : arg2.IsWhole) (arg3 : Memref sig .tc .vmem S1x128x3 .f32) (harg3 : arg3.IsWhole)
    (arg4 : Memref sig .tc .vmem S1x4096x1 .f32) (harg4 : arg4.IsWhole) (arg5 : Memref sig .tc .vmem S1x1x128 .f32) (harg5 : arg5.IsWhole)
    (h1 : k0_cond1 i = 1#1) (h2 : ¬ k0_cond2 i = 1#1)
    (x0 : Vec F S1x4096x3 .f32) (x1 : Vec F S1x128x3 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay4 x0 x1) ∗ owns (c : Thread nD τ) arg5 fullShare (k0_pay1 (k0_pay6 x0 x1))) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_store_whole arg4 _ off3, readAt_whole arg2 harg2 off3, readAt_whole arg3 harg3 off3]
  iexists _; isplitr
  swap; · iexact H3
  ipureintro
  unfold sound_kernel0_first.sl.r
  rw [read_store_whole arg5 _ off3, readAt_whole arg2 harg2 off3, readAt_whole arg3 harg3 off3]

set_option maxHeartbeats 1000000 in
/-- At a later tile: the per-query buffer at a; it ends at the pointwise minimum of a and the tile's row minima. -/
theorem sound_kernel0_later (c : Dev nD) (E : Set ℕ) (i : grid0.Coords)
    (arg2 : Memref sig .tc .vmem S1x4096x3 .f32) (harg2 : arg2.IsWhole) (arg3 : Memref sig .tc .vmem S1x128x3 .f32) (harg3 : arg3.IsWhole)
    (arg4 : Memref sig .tc .vmem S1x4096x1 .f32) (harg4 : arg4.IsWhole) (arg5 : Memref sig .tc .vmem S1x1x128 .f32) (harg5 : arg5.IsWhole)
    (h1 : ¬ k0_cond1 i = 1#1) (h2 : k0_cond2 i = 1#1)
    (x0 : Vec F S1x4096x3 .f32) (x1 : Vec F S1x128x3 .f32) (a : Vec F S1x4096x1 .f32) (K : PUnit → sProp 𝕄) :
    iprop(owns (c : Thread nD τ) arg2 fullShare x0 ∗ owns (c : Thread nD τ) arg3 fullShare x1
        ∗ owns (c : Thread nD τ) arg4 fullShare a ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay5 x0 x1 a) ∗ owns (c : Thread nD τ) arg5 fullShare (k0_pay1 (k0_pay6 x0 x1))) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_store_whole arg4 _ off3, readAt_whole arg2 harg2 off3, readAt_whole arg3 harg3 off3, readAt_whole arg4 harg4 off3]
  iexists _; isplitr
  swap; · iexact H3
  ipureintro
  unfold sound_kernel0_later.sl.r
  rw [read_store_whole arg5 _ off3, readAt_whole arg2 harg2 off3, readAt_whole arg3 harg3 off3]

/-! ## What the staging buffers hold when the body runs -/

/-- The x-window's buffer holds batch b's points at every point (fetched at the batch's first tile, kept after). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The y-window's buffer holds the point's tile (fetched at every point). -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At a later tile the per-query buffer holds the running minimum the tile before left: the block is written back
    only after a batch's last tile, and the tile before is not one. -/
theorem before0_2_later (c : Dev nD) (t : Fin cfg0.N) (h0 : ¬ t.val % 32 = 0) (d) :
    (dat0 V c).before 2 t d = acc0 V c (t.val - 1) (Nat.lt_of_le_of_lt (Nat.sub_le _ _) t.isLt) := by
  rw [Dat.before_out_kept _ 2 rfl t (by omega)
    (Bool.eq_false_iff.mpr fun h => by have := (flush0_2 _).mp h; dsimp only at this; omega)
    (live0 2) (fun _ _ => rfl)]
  exact after0_2 V c _

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' buffers hold their blocks; at a batch's first tile the first case applies to
    whatever the output buffers hold, at a later tile the second, the per-query buffer at the running minimum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 32 = 0
  · have hc1 : k0_cond1 (grid0.coords t) = 1#1 := (hcond1 t).mpr h0
    have hc2 : ¬ k0_cond2 (grid0.coords t) = 1#1 := fun h => (cond2_iff_not_cond1 _).mp h hc1
    rw [acc0_first V c t h0]
    iintro ⟨HΦ, Ho, ⟨%d0, H0⟩, ⟨%d1, H1⟩, ⟨%d2, H2⟩, ⟨%d3, H3⟩⟩
    iapply (sound_kernel0_first c Set.univ (grid0.coords t) _ _ _ _ _ _ _ _ hc1 hc2 (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc1 : ¬ k0_cond1 (grid0.coords t) = 1#1 := fun h => h0 ((hcond1 t).mp h)
    have hc2 : k0_cond2 (grid0.coords t) = 1#1 := (cond2_iff_not_cond1 _).mpr hc1
    rw [acc0_later V c t h0]
    simp only [before0_2_later V c t h0]
    iintro ⟨HΦ, Ho, ⟨%d0, H0⟩, ⟨%d1, H1⟩, ⟨%d2, H2⟩, ⟨%d3, H3⟩⟩
    iapply (sound_kernel0_later c Set.univ (grid0.coords t) _ _ _ _ _ _ _ _ hc1 hc2 (iblk0 V c 0 t) (iblk0 V c 1 t) _ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation of pipeline 0, at every point. -/
theorem body_obligation0 (c : Dev nD) : BodyObligation (dat0 (F := F) V c) (defs₀ (F := F)) Variants.none () Set.univ := fun t => by
  rw [bigSep_W0, bigSep_W0]
  rw [live0 2 (cfg0.grid.coords t)]
  exact sound_body0 V c t

end Cert.KernelIdeal.Fr

end
-- ==== Proof.KI.Cosine.lean ====
/-
  The body obligation of region 1 (the cosine kernel).
-/
import proofs.«151054_j3006477107870_1_alg».proof.Proof.KI.Data
import Idealize.ShloMosaic.Lib.Pipeline.Value
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0's current buffer holds the window's block at the point, at every point, fetched there or not:
    the window is an uncut input that the body leaves in place, and the configuration states no idle point of it. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Likewise input window 1's. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's triple -/

/-- The offsets of a rank-3 rectangle at the origin are the constant zero. -/
theorem zeros3 : (![0, 0, 0] : Fin 3 → ℕ) = fun _ => 0 := funext fun a => by fin_cases a <;> rfl

set_option maxHeartbeats 1000000 in
/-- The kernel on whole buffers: the two input buffers at contents `x0`, `x1` and the output buffer at anything
    run to the continuation with the input buffers unchanged and the output buffer holding the store's payload
    at `x0` and `x1`.  Both input loads read a whole buffer through the whole-shape rectangle at the origin, so
    they read `x0` and `x1` themselves; the load of the output buffer is unused; the one store writes the whole
    1 × 1 × 1 buffer, so what it leaves is its payload whatever the buffer held. -/
theorem sound_kernel1 (c : Dev nD) (E : Set ℕ) (i : grid1.Coords)
    (arg1 : Memref sig .tc .vmem S1x4096x32 .f32) (harg1 : arg1.IsWhole)
    (arg2 : Memref sig .tc .vmem S1x4096x32 .f32) (harg2 : arg2.IsWhole)
    (arg3 : Memref sig .tc .vmem S1x1x1 .f32) (harg3 : arg3.IsWhole)
    (x0 x1 : Vec F S1x4096x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k1_pay1 x0 x1)) -∗ K ⟨⟩))
      ⊢ wp frame (wpE (defs₀ (F := F)) Variants.none c none) E (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0
  subst hf1
  sl_exec
  sl_step
  -- a whole-buffer load at the origin reads the buffer
  have h0 : View.readAt (Elt F) arg1.view
      (Rect.unit ![0, 0, 0] S1x4096x32.size inb_S1x4096x32_S1x4096x32_0_0_0).toLoadRect f0 = View.read (Elt F) arg1.view f0 :=
    (View.readAt_eq_ld arg1.view f0 _).trans (View.ld_unit_zero (S := S1x4096x32) zeros3 _ _)
  have h1 : View.readAt (Elt F) arg2.view
      (Rect.unit ![0, 0, 0] S1x4096x32.size inb_S1x4096x32_S1x4096x32_0_0_0).toLoadRect f1 = View.read (Elt F) arg2.view f1 :=
    (View.readAt_eq_ld arg2.view f1 _).trans (View.ld_unit_zero (S := S1x4096x32) zeros3 _ _)
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads back as the store's payload
  rw [View.read_writes_eq_canon _ _ _ (fun y => ⟨_, List.mem_singleton_self _,
      View.mem_set_unit_zero (S := S1x1x1) zeros3 inb_S1x1x1_S1x1x1_0_0_0 y⟩),
    View.canon_unit_zero (S := S1x1x1) zeros3 inb_S1x1x1_S1x1x1_0_0_0, h0, h1]

/-! ## The body obligation, at a generic point -/

/-- What the body is called with at point `t`: the invariant, the core's debts, and each window's current buffer
    at what the pipeline hands it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the kernel's triple applies at those blocks;
    the output buffer is handed over at whatever it held; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/-
  The run of @main: region 0, nine host operations, region 1, eleven host operations.

  The contents of the core's unscoped buffers at each boundary are a fold from the launch memory `m`:
  after region 0 its two result arrays hold what the write-backs leave (the proof data's `arrAt` at the last
  point), every other buffer what it held; a host stretch applies its operations; region 1 likewise.  Each
  region is entered from all unscoped buffers held at the boundary's contents beside the core's generator
  register and its (empty) dues; its arrays are split out, the region runs by its body obligation, and the
  arrays are put back at their final contents.  The launch then reads every unscoped buffer of the final
  memory at the last boundary's contents: the four arguments are never written, and the result is the last
  host stretch's value.
-/
import proofs.«151054_j3006477107870_1_alg».proof.Proof.KI.Fold
import proofs.«151054_j3006477107870_1_alg».proof.Proof.KI.Chamfer
import proofs.«151054_j3006477107870_1_alg».proof.Proof.KI.Cosine
import proofs.«151054_j3006477107870_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (Vr0 m) c
  | ⟨1, _⟩ => fun c => dat1 (Vr2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev msegs : List (Pipeline.Seg (pcfgs (F := F)) adm' (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main is the run of the segments. -/
theorem main_run (c : Dev nD) : main (F := F) c = Pipeline.Seg.run (msegs m) := (main_chain c).trans (by chain_rfl)

set_option backward.isDefEq.respectTransparency.types false in
/-- From any memory with zero counters every weakly fair execution of @main terminates, nothing faulting, and the
    final memory holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v12) = W4 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v12 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.KernelIdeal.Fr

end
-- ==== Proof.Spec.lean ====
/-
  The mathematics both programs compute, over the argument arrays read at the extended reals.

  x, y : [8, 4096, 3] are the two point clouds, f, g : [8, 4096, 32] the two feature arrays.
  dist b n j = sqrt (max (|x_bn|² + |y_bj|² − 2 ⟨x_bn, y_bj⟩) ε) is the clamped Euclidean distance of query n
  and key j of batch b; nearest1 b n its minimum over the keys, nearest2 b j its minimum over the queries;
  cosq b n the cosine of the two feature rows, each divided by its norm clamped below at ε.
  The loss is  0.9 · (Σ nearest1 / 32768 + Σ nearest2 / 32768) + 0.1 · (1 − mean cosine).
-/
import Idealize.ShloMosaic.PureOps.Ideal
import Idealize.ShloMosaic.Lib.ValueIdx
import Mathlib.Order.CompleteLattice.Finset
import Mathlib.Algebra.BigOperators.Group.Finset.Basic

noncomputable section

namespace Cert.Spec

open Idealize.ShloMosaic Idealize.ShloMosaic.ValueIdx

/-- An array of 8 batches of 4096 points in 3 coordinates, at the extended reals. -/
abbrev Pts : Type := (⟨3, ![8, 4096, 3]⟩ : Shape).Idx → EReal
/-- An array of 8 batches of 4096 feature rows of 32 entries. -/
abbrev Feat : Type := (⟨3, ![8, 4096, 32]⟩ : Shape).Idx → EReal

/-- The literal 2. -/
def two : EReal := Ideal.ofBits .f32 0x40000000#32
/-- The clamp ε (the f32 nearest 1e-12). -/
def eps : EReal := Ideal.ofBits .f32 0x2B8CBCCC#32
def c32768 : EReal := Ideal.ofBits .f32 0x47000000#32
def c4096 : EReal := Ideal.ofBits .f32 0x45800000#32
def c8 : EReal := Ideal.ofBits .f32 0x41000000#32
def c1 : EReal := Ideal.ofBits .f32 0x3F800000#32
def c09 : EReal := Ideal.ofBits .f32 0x3F666666#32
def c01 : EReal := Ideal.ofBits .f32 0x3DCCCCCD#32

/-- The squared norm of point n of batch b. -/
def sq (x : Pts) (b : Fin 8) (n : Fin 4096) : EReal := ∑ d : Fin 3, x (ix3 b n d) * x (ix3 b n d)
/-- The inner product of query n and key j of batch b. -/
def dotp (x y : Pts) (b : Fin 8) (n j : Fin 4096) : EReal := ∑ d : Fin 3, x (ix3 b n d) * y (ix3 b j d)
/-- The clamped distance of query n and key j of batch b. -/
def dist (x y : Pts) (b : Fin 8) (n j : Fin 4096) : EReal :=
  Ideal.sqrt (max (sq x b n + sq y b j - two * dotp x y b n j) eps)
/-- The distance of query n to its nearest key. -/
def nearest1 (x y : Pts) (b : Fin 8) (n : Fin 4096) : EReal := Finset.univ.inf fun j : Fin 4096 => dist x y b n j
/-- The distance of key j to its nearest query. -/
def nearest2 (x y : Pts) (b : Fin 8) (j : Fin 4096) : EReal := Finset.univ.inf fun n : Fin 4096 => dist x y b n j
/-- The clamped norm of feature row n of batch b. -/
def nrm (f : Feat) (b : Fin 8) (n : Fin 4096) : EReal :=
  max (Ideal.sqrt (∑ c : Fin 32, f (ix3 b n c) * f (ix3 b n c))) eps
/-- The cosine of the two feature rows n of batch b. -/
def cosq (f g : Feat) (b : Fin 8) (n : Fin 4096) : EReal :=
  ∑ c : Fin 32, Ideal.div (f (ix3 b n c)) (nrm f b n) * Ideal.div (g (ix3 b n c)) (nrm g b n)
/-- The loss from the two chamfer sums and the mean cosine. -/
def tail (s1 s2 cm : EReal) : EReal :=
  c09 * (Ideal.div s1 c32768 + Ideal.div s2 c32768) + c01 * (c1 - cm)

end Cert.Spec

end
-- ==== Proof.KI.ValPay.lean ====
/-
  The chamfer kernel's payloads read at an index, at the extended reals: the tile of clamped distances, its row
  minima (alone, and folded into what the block held) and its column minima.
-/
import proofs.«151054_j3006477107870_1_alg».proof.Proof.Gen.KernelIdeal.Skeleton
import proofs.«151054_j3006477107870_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.Finset.Lattice.Fold

set_option maxRecDepth 16384

noncomputable section

namespace Cert.KernelIdeal.Val

open Idealize.ShloMosaic Idealize.ShloMosaic.TcCoe Idealize.ShloMosaic.ValueIdx
open Cert.KernelIdeal Cert.KernelIdeal.Gen Cert.Spec

/-- The clamped distance of row n of a block of 4096 queries and row j of a tile of 128 keys. -/
def bdist (x0 : Vec Ideal S1x4096x3 .f32) (x1 : Vec Ideal S1x128x3 .f32) (n : Fin 4096) (j : Fin 128) : EReal :=
  Ideal.sqrt (max ((∑ d : Fin 3, x0 (ix3 0 n d) * x0 (ix3 0 n d)) + (∑ d : Fin 3, x1 (ix3 0 j d) * x1 (ix3 0 j d))
    - two * ∑ d : Fin 3, x0 (ix3 0 n d) * x1 (ix3 0 j d)) eps)

/-! ## Layout steps at explicit coordinates -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over one axis of a matrix -/

/-- The sum over the lanes of an `[a, b]` array, read at row `i`: the sum of the row's entries. -/
theorem laneSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction (F := Ideal) .add [1] ⟨1, ![a]⟩ x 0x00000000#32 h hφ hacc (ix1 i) = ∑ d : Fin b, x (ix2 i d) := by
  refine (Ideal.multiReduction_add_single x _ h hφ hacc (ix1 i)).trans ?_
  refine Finset.sum_congr rfl fun d _ => congrArg x (funext fun c => Fin.ext ?_)
  match c with
  | ⟨0, _⟩ => rfl
  | ⟨1, _⟩ => rfl

/-- The f32 word of `+∞` is the top of the extended reals. -/
theorem ofBits_inf_f32 : Ideal.ofBits .f32 0x7F800000#32 = ⊤ := by simp [Ideal.ofBits, Ideal.ieee]

/-- A float `vector.multi_reduction <minimumf>` over one axis, read at the extended reals: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum from `+∞` over the lanes of an `[a, b]` array, read at row `i`: the infimum of the row's entries. -/
theorem laneMin_apply {a b : ℕ} (x : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (i : Fin a) :
    multiReduction (F := Ideal) .minimumf [1] ⟨1, ![a]⟩ x 0x7F800000#32 h hφ hacc (ix1 i)
      = Finset.univ.inf fun d : Fin b => x (ix2 i d) := by
  refine (multiReduction_minimumf_single x _ h hφ hacc (ix1 i)).trans ?_
  rw [Ideal.ofBits_def, ofBits_inf_f32]
  refine congrArg (Finset.fold min ⊤ · Finset.univ) (funext fun d => congrArg x (funext fun c => Fin.ext ?_))
  match c with
  | ⟨0, _⟩ => rfl
  | ⟨1, _⟩ => rfl

/-- The minimum from `+∞` over the rows of an `[a, b]` array, read at lane `j`: the infimum of the column's entries. -/
theorem rowMin_apply {a b : ℕ} (x : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (j : Fin b) :
    multiReduction (F := Ideal) .minimumf [0] ⟨1, ![b]⟩ x 0x7F800000#32 h hφ hacc (ix1 j)
      = Finset.univ.inf fun n : Fin a => x (ix2 n j) := by
  refine (multiReduction_minimumf_single x _ h hφ hacc (ix1 j)).trans ?_
  rw [Ideal.ofBits_def, ofBits_inf_f32]
  refine congrArg (Finset.fold min ⊤ · Finset.univ) (funext fun n => congrArg x (funext fun c => Fin.ext ?_))
  match c with
  | ⟨0, _⟩ => rfl
  | ⟨1, _⟩ => rfl

/-! ## The tile's matrix product -/

theorem lhs_tile_0 (i : S4096x128.Idx) (q : dot_S4096x3_S3x128_S4096x128_1_0_0_1_n_n.contr.Idx) :
    (dot_S4096x3_S3x128_S4096x128_1_0_0_1_n_n.lhsIdx i q 0).val = (i 0).val := by
  unfold DotDims.lhsIdx
  rw [dif_neg (show ¬(0 : Fin S4096x3.rank) ∈ dot_S4096x3_S3x128_S4096x128_1_0_0_1_n_n.lhsBatch by decide), dif_pos (show (0 : Fin S4096x3.rank) ∈ dot_S4096x3_S3x128_S4096x128_1_0_0_1_n_n.lhsNonContracting by decide)]
  rfl
theorem lhs_tile_1 (i : S4096x128.Idx) (q : dot_S4096x3_S3x128_S4096x128_1_0_0_1_n_n.contr.Idx) :
    (dot_S4096x3_S3x128_S4096x128_1_0_0_1_n_n.lhsIdx i q 1).val = (q ⟨0, by decide⟩).val :=
  dot_S4096x3_S3x128_S4096x128_1_0_0_1_n_n.lhsIdx_val_of_single rfl i q
theorem rhs_tile_0 (i : S4096x128.Idx) (q : dot_S4096x3_S3x128_S4096x128_1_0_0_1_n_n.contr.Idx) :
    (dot_S4096x3_S3x128_S4096x128_1_0_0_1_n_n.rhsIdx i q 0).val = (q ⟨0, by decide⟩).val :=
  dot_S4096x3_S3x128_S4096x128_1_0_0_1_n_n.rhsIdx_val_of_single rfl i q
theorem rhs_tile_1 (i : S4096x128.Idx) (q : dot_S4096x3_S3x128_S4096x128_1_0_0_1_n_n.contr.Idx) :
    (dot_S4096x3_S3x128_S4096x128_1_0_0_1_n_n.rhsIdx i q 1).val = (i 1).val := by
  unfold DotDims.rhsIdx
  rw [dif_neg (show ¬(1 : Fin S3x128.rank) ∈ dot_S4096x3_S3x128_S4096x128_1_0_0_1_n_n.rhsBatch by decide), dif_pos (show (1 : Fin S3x128.rank) ∈ dot_S4096x3_S3x128_S4096x128_1_0_0_1_n_n.rhsNonContracting by decide)]
  rfl

/-- The matrix product of a `[4096, 3]` block and a `[3, 128]` block into the zero tile, read at an entry: the inner
    product of the left block's row and the right block's column. -/
theorem tileDot_apply (A : FVec Ideal S4096x3 .bf16) (B : FVec Ideal S3x128 .bf16) (n : Fin 4096) (j : Fin 128) :
    matmul dot_S4096x3_S3x128_S4096x128_1_0_0_1_n_n none A B (constant (F := Ideal) S4096x128 .f32 0x00000000#32) (ix2 n j)
      = ∑ d : Fin 3, A (ix2 n d) * B (ix2 d j) := by
  simp only [matmul]
  rw [Ideal.matmul_constant_zero_apply, ← Equiv.sum_comp (contrEquiv1 dot_S4096x3_S3x128_S4096x128_1_0_0_1_n_n 3 rfl rfl).symm]
  refine Finset.sum_congr rfl fun k _ => ?_
  have hk := contrEquiv1_symm_val dot_S4096x3_S3x128_S4096x128_1_0_0_1_n_n 3 rfl rfl k
  have el : dot_S4096x3_S3x128_S4096x128_1_0_0_1_n_n.lhsIdx (ix2 n j) ((contrEquiv1 dot_S4096x3_S3x128_S4096x128_1_0_0_1_n_n 3 rfl rfl).symm k) = ix2 n k := funext fun a => Fin.ext (by
    match a with
    | ⟨0, _⟩ => exact lhs_tile_0 _ _
    | ⟨1, _⟩ => exact (lhs_tile_1 _ _).trans hk)
  have er : dot_S4096x3_S3x128_S4096x128_1_0_0_1_n_n.rhsIdx (ix2 n j) ((contrEquiv1 dot_S4096x3_S3x128_S4096x128_1_0_0_1_n_n 3 rfl rfl).symm k) = ix2 k j := funext fun a => Fin.ext (by
    match a with
    | ⟨0, _⟩ => exact (rhs_tile_0 _ _).trans hk
    | ⟨1, _⟩ => exact rhs_tile_1 _ _)
  rw [el, er]

/-! ## The tile of distances -/

/-- A square root taken entry by entry, at an entry. -/
theorem sqrt_apply {s : Shape} {φ : FTy} (a : FVec Ideal s φ) (i : s.Idx) : sqrt a i = Ideal.sqrt (a i) := rfl

/-- The squared norms of the rows of a `[1, 4096, 3]` block of points, as a column spread over the tile's lanes. -/
theorem sqCol_apply (x : Vec Ideal S1x4096x3 .f32) (hc : S1x4096x3.ShapeCasts S4096x3) (hr : S4096x3.Reduces [1] S4096)
    (hφ : FKind.Formats .f32) (hacc : (0x00000000#32 : BitVec 32) = FKind.add.neutral .f32 hφ)
    (hs : S4096.ShapeCasts S4096x1) (hb : S4096x1.Broadcasts S4096x128) (n : Fin 4096) (j : Fin 128) :
    broadcastTo S4096x128 (shapeCast S4096x1 (multiReduction (F := Ideal) .add [1] S4096
        (mulf (shapeCast S4096x3 x hc) (shapeCast S4096x3 x hc)) 0x00000000#32 hr hφ hacc) hs) hb (ix2 n j)
      = ∑ d : Fin 3, x (ix3 0 n d) * x (ix3 0 n d) := by
  refine (broadcastTo_a1_ab_apply _ hb n j).trans ((shapeCast_a_a1_apply _ hs n 0).trans ((laneSum_apply _ hr hφ hacc n).trans ?_))
  refine Finset.sum_congr rfl fun d _ => ?_
  rw [mulf_apply, shapeCast_1ab_ab_apply x hc n d]

/-- The squared norms of the rows of a `[1, 128, 3]` block of points, transposed into a row and spread over the tile's
    sublanes. -/
theorem sqRow_apply (x : Vec Ideal S1x128x3 .f32) (hc : S1x128x3.ShapeCasts S128x3) (hr : S128x3.Reduces [1] S128)
    (hφ : FKind.Formats .f32) (hacc : (0x00000000#32 : BitVec 32) = FKind.add.neutral .f32 hφ)
    (hs : S128.ShapeCasts S128x1) (ht : S128x1.Transposes [1, 0] S1x128) (hb : S1x128.Broadcasts S4096x128)
    (n : Fin 4096) (j : Fin 128) :
    broadcastTo S4096x128 (transpose S1x128 [1, 0] (shapeCast S128x1 (multiReduction (F := Ideal) .add [1] S128
        (mulf (shapeCast S128x3 x hc) (shapeCast S128x3 x hc)) 0x00000000#32 hr hφ hacc) hs) ht) hb (ix2 n j)
      = ∑ d : Fin 3, x (ix3 0 j d) * x (ix3 0 j d) := by
  refine (broadcastTo_1b_ab_apply _ hb n j).trans ((transpose_ix2_apply _ ht 0 j).trans
    ((shapeCast_a_a1_apply _ hs j 0).trans ((laneSum_apply _ hr hφ hacc j).trans ?_)))
  refine Finset.sum_congr rfl fun d _ => ?_
  rw [mulf_apply, shapeCast_1ab_ab_apply x hc j d]

/-- The inner products of the rows of the two blocks of points, taken from the blocks narrowed to the shorter
    format (a narrowing is the identity at the extended reals). -/
theorem cross_apply (x : Vec Ideal S1x4096x3 .f32) (y : Vec Ideal S1x128x3 .f32) (hx : S1x4096x3.ShapeCasts S4096x3)
    (hy : S1x128x3.ShapeCasts S128x3) (hlt : FTy.bf16.bits < FTy.f32.bits) (ht : S128x3.Transposes [1, 0] S3x128)
    (n : Fin 4096) (j : Fin 128) :
    matmul dot_S4096x3_S3x128_S4096x128_1_0_0_1_n_n none (truncf .bf16 (shapeCast S4096x3 x hx) hlt)
        (transpose S3x128 [1, 0] (truncf .bf16 (shapeCast S128x3 y hy) hlt) ht)
        (constant (F := Ideal) S4096x128 .f32 0x00000000#32) (ix2 n j)
      = ∑ d : Fin 3, x (ix3 0 n d) * y (ix3 0 j d) := by
  refine (tileDot_apply _ _ n j).trans (Finset.sum_congr rfl fun d _ => ?_)
  rw [truncf_apply, transpose_ix2_apply _ ht d j, truncf_apply, shapeCast_1ab_ab_apply x hx n d, shapeCast_1ab_ab_apply y hy j d]

/-- The tile of distances at an entry. -/
theorem pay2_apply (x0 : Vec Ideal S1x4096x3 .f32) (x1 : Vec Ideal S1x128x3 .f32) (n : Fin 4096) (j : Fin 128) :
    k0_pay2 (F := Ideal) x0 x1 (ix2 n j) = bdist x0 x1 n j := by
  unfold k0_pay2 bdist two eps
  simp only [sqrt_apply, maximumf_apply, subf_apply, addf_apply, mulf_apply, broadcast_apply, Ideal.ofBits_def]
  refine congrArg Ideal.sqrt (congrArg₂ max ?_ rfl)
  refine congrArg₂ HSub.hSub (congrArg₂ HAdd.hAdd ?_ ?_) (congrArg₂ HMul.hMul rfl ?_)
  · exact sqCol_apply x0 _ _ _ _ _ _ n j
  · exact sqRow_apply x1 _ _ _ _ _ _ _ n j
  · exact cross_apply x0 x1 _ _ _ _ n j

/-- The tile's row minima as a column, at an entry. -/
theorem pay3_apply (x0 : Vec Ideal S1x4096x3 .f32) (x1 : Vec Ideal S1x128x3 .f32) (n : Fin 4096) (u : Fin 1) :
    k0_pay3 (F := Ideal) x0 x1 (ix2 n u) = Finset.univ.inf fun j : Fin 128 => bdist x0 x1 n j := by
  unfold k0_pay3
  refine (shapeCast_a_a1_apply _ _ n u).trans ((laneMin_apply _ _ _ _ n).trans ?_)
  exact Finset.inf_congr rfl fun j _ => pay2_apply x0 x1 n j

/-- The tile's row minima, as stored at the first tile of a batch. -/
theorem pay4_apply (x0 : Vec Ideal S1x4096x3 .f32) (x1 : Vec Ideal S1x128x3 .f32) (n : Fin 4096) :
    k0_pay4 (F := Ideal) x0 x1 (ix3 0 n 0) = Finset.univ.inf fun j : Fin 128 => bdist x0 x1 n j := by
  unfold k0_pay4
  exact (shapeCast_ab_1ab_apply _ _ 0 n 0).trans (pay3_apply x0 x1 n 0)

/-- The row minima folded into what the block held, as stored at a later tile. -/
theorem pay5_apply (x0 : Vec Ideal S1x4096x3 .f32) (x1 : Vec Ideal S1x128x3 .f32) (a : Vec Ideal S1x4096x1 .f32) (n : Fin 4096) :
    k0_pay5 (F := Ideal) x0 x1 a (ix3 0 n 0) = min (a (ix3 0 n 0)) (Finset.univ.inf fun j : Fin 128 => bdist x0 x1 n j) := by
  unfold k0_pay5
  refine (shapeCast_ab_1ab_apply _ _ 0 n 0).trans ((minimumf_apply _ _ _).trans ?_)
  exact congrArg₂ min (shapeCast_1ab_ab_apply a _ n 0) (pay3_apply x0 x1 n 0)

/-- The tile's column minima, as stored. -/
theorem pay16_apply (x0 : Vec Ideal S1x4096x3 .f32) (x1 : Vec Ideal S1x128x3 .f32) (j : Fin 128) :
    k0_pay1 (k0_pay6 (F := Ideal) x0 x1) (ix3 0 0 j) = Finset.univ.inf fun n : Fin 4096 => bdist x0 x1 n j := by
  unfold k0_pay1 k0_pay6
  refine (shapeCast_ab_1ab_apply _ _ 0 0 j).trans ((shapeCast_a_1a_apply _ _ 0 j).trans ((rowMin_apply _ _ _ _ j).trans ?_))
  exact Finset.inf_congr rfl fun n _ => pay2_apply x0 x1 n j

end Cert.KernelIdeal.Val

end
-- ==== Proof.KI.ValMin.lean ====
/-
  What region 0 leaves in its two result arrays, at the extended reals: entry (b, n, 0) of the first is the
  distance of query n of batch b to its nearest key, entry (b, 0, j) of the second the distance of key j to its
  nearest query.

  The grid is 8 × 32, point t = (b, k) = (t / 32, t % 32).  The query block at a point is batch b whole, the key
  tile is keys 128 k .. 128 k + 127 of batch b, so the tile's clamped distances are dist b n (128 k + j).  Every
  point writes its tile's column minima to block (b, 0, k) of the per-key array: these blocks tile it.  The per-query
  block of batch b holds after tile k the minimum over the keys below 128 (k + 1) (induction over k: the first
  tile stores its row minima, a later tile meets them with what the block held), and the last tile's point writes
  it back to block (b, 0, 0): these blocks tile the per-query array.
-/
import proofs.«151054_j3006477107870_1_alg».proof.Proof.KI.Fold
import proofs.«151054_j3006477107870_1_alg».proof.Proof.KI.ValPay
import Idealize.ShloMosaic.Lib.Pipeline.Value
import Mathlib.Order.CompleteLattice.Finset
import Mathlib.Data.Finset.Lattice.Fold

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Spec

variable (m : (ℓ : Loc nD τ sig) → Buf (Elt Ideal) ℓ)

/-- The two point clouds as launched. -/
abbrev Xa (c : Dev nD) : Pts := m ((c : Thread nD τ).loc main_arg0)
abbrev Ya (c : Dev nD) : Pts := m ((c : Thread nD τ).loc main_arg1)

/-! ## The windows' block indices over the grid -/

/-- Point t = (b, k) = (t / 32, t % 32): the query block and the per-query result block are batch b's, the key
    tile and the per-key result tile are tile k of batch b. -/
theorem idx_facts : ∀ t : Fin cfg0.N,
    win0_0.index t (0 : Fin 3) = t.val / 32 ∧ win0_0.index t (1 : Fin 3) = 0 ∧ win0_0.index t (2 : Fin 3) = 0
    ∧ win0_1.index t (0 : Fin 3) = t.val / 32 ∧ win0_1.index t (1 : Fin 3) = t.val % 32 ∧ win0_1.index t (2 : Fin 3) = 0
    ∧ win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = t.val % 32 :=
  (by decide +kernel : ∀ t : Fin grid0.N, _)

/-! ## The input blocks read off the point clouds -/

/-- The block of queries at a point. -/
abbrev xblk (c : Dev nD) (t : Fin cfg0.N) : Vec Ideal S1x4096x3 .f32 := iblk0 (Vr0 m) c 0 t
/-- The tile of keys at a point. -/
abbrev yblk (c : Dev nD) (t : Fin cfg0.N) : Vec Ideal S1x128x3 .f32 := iblk0 (Vr0 m) c 1 t

/-- Row n of the query block at point (b, k) is point n of batch b. -/
theorem xblk_apply (c : Dev nD) (t : Fin cfg0.N) (b : Fin 8) (hb : b.val = t.val / 32) (n : Fin 4096) (d : Fin 3) :
    xblk m c t (ix3 0 n d) = Xa m c (ix3 b n d) := by
  obtain ⟨e0, e1, e2, -⟩ := idx_facts t
  unfold xblk iblk0
  rw [View.read_apply]
  show Vr0 m c main_arg0 _ = m ((c : Thread nD τ).loc main_arg0) _
  show m ((c : Thread nD τ).loc main_arg0) _ = m ((c : Thread nD τ).loc main_arg0) _
  congr 1
  funext a
  apply Fin.ext
  match a with
  | ⟨0, _⟩ => show win0_0.index t (0 : Fin 3) * 1 + 1 * 0 = b.val; omega
  | ⟨1, _⟩ => show win0_0.index t (1 : Fin 3) * 4096 + 1 * n.val = n.val; omega
  | ⟨2, _⟩ => show win0_0.index t (2 : Fin 3) * 3 + 1 * d.val = d.val; omega

/-- Row j of the key tile at point (b, k) is point 128 k + j of batch b. -/
theorem yblk_apply (c : Dev nD) (t : Fin cfg0.N) (b : Fin 8) (hb : b.val = t.val / 32) (j : Fin 128) (j' : Fin 4096)
    (hj : j'.val = 128 * (t.val % 32) + j.val) (d : Fin 3) :
    yblk m c t (ix3 0 j d) = Ya m c (ix3 b j' d) := by
  obtain ⟨-, -, -, e0, e1, e2, -⟩ := idx_facts t
  unfold yblk iblk0
  rw [View.read_apply]
  show m ((c : Thread nD τ).loc main_arg1) _ = m ((c : Thread nD τ).loc main_arg1) _
  congr 1
  funext a
  apply Fin.ext
  match a with
  | ⟨0, _⟩ => show win0_1.index t (0 : Fin 3) * 1 + 1 * 0 = b.val; omega
  | ⟨1, _⟩ => show win0_1.index t (1 : Fin 3) * 128 + 1 * j.val = j'.val; omega
  | ⟨2, _⟩ => show win0_1.index t (2 : Fin 3) * 3 + 1 * d.val = d.val; omega

/-- So the tile's distance of row n and row j is the distance of query n and key 128 k + j of batch b. -/
theorem bdist_blk (c : Dev nD) (t : Fin cfg0.N) (b : Fin 8) (hb : b.val = t.val / 32) (n : Fin 4096) (j : Fin 128)
    (j' : Fin 4096) (hj : j'.val = 128 * (t.val % 32) + j.val) :
    bdist (xblk m c t) (yblk m c t) n j = Spec.dist (Xa m c) (Ya m c) b n j' := by
  unfold bdist Spec.dist Spec.sq Spec.dotp
  simp only [xblk_apply m c t b hb, yblk_apply m c t b hb j j' hj]

/-! ## The per-query minima: a running minimum over the 32 key tiles of a batch, written back at the last -/

/-- The keys below a bound. -/
abbrev below (K : ℕ) : Finset (Fin 4096) := Finset.univ.filter fun j' => j'.val < K

theorem below_zero : below 0 = ∅ := by
  ext j; simp

theorem below_all : below 4096 = Finset.univ := by
  ext j; simp

/-- The minimum over the keys below 128 k, met with the minimum over tile k, is the minimum over the keys below
    128 (k + 1): the tile's entries are the keys 128 k .. 128 k + 127. -/
theorem tile_inf (f : Fin 4096 → EReal) (k : ℕ) (hk : k < 32) (g : Fin 128 → EReal)
    (hg : ∀ (j : Fin 128) (j' : Fin 4096), j'.val = 128 * k + j.val → g j = f j') :
    min ((below (128 * k)).inf f) (Finset.univ.inf g) = (below (128 * (k + 1))).inf f := by
  apply le_antisymm
  · apply Finset.le_inf
    intro j' hj'
    have hj'' : j'.val < 128 * (k + 1) := (Finset.mem_filter.mp hj').2
    by_cases h : j'.val < 128 * k
    · exact (min_le_left _ _).trans (Finset.inf_le (Finset.mem_filter.mpr ⟨Finset.mem_univ _, h⟩))
    · refine (min_le_right _ _).trans ?_
      have e := hg ⟨j'.val - 128 * k, by omega⟩ j' (by show j'.val = 128 * k + (j'.val - 128 * k); omega)
      rw [← e]
      exact Finset.inf_le (Finset.mem_univ _)
  · apply le_min
    · apply Finset.le_inf
      intro j' hj'
      have hj'' : j'.val < 128 * k := (Finset.mem_filter.mp hj').2
      exact Finset.inf_le (Finset.mem_filter.mpr ⟨Finset.mem_univ _, by omega⟩)
    · apply Finset.le_inf
      intro j _
      rw [hg j ⟨128 * k + j.val, by have := j.isLt; omega⟩ rfl]
      exact Finset.inf_le (Finset.mem_filter.mpr ⟨Finset.mem_univ _, by show 128 * k + j.val < 128 * (k + 1); have := j.isLt; omega⟩)

/-- At the first tile of a batch the block holds the minimum over the first 128 keys. -/
theorem acc_first_eq (c : Dev nD) (t : Fin cfg0.N) (h0 : t.val % 32 = 0) (b : Fin 8) (hb : b.val = t.val / 32) (q : Fin 4096) :
    acc0 (F := Ideal) (Vr0 m) c t.val t.isLt (ix3 0 q 0)
      = (below (128 * (t.val % 32 + 1))).inf fun j' => Spec.dist (Xa m c) (Ya m c) b q j' := by
  refine (congrFun (acc0_first (F := Ideal) (Vr0 m) c t h0) (ix3 0 q 0)).trans ?_
  refine (pay4_apply _ _ q).trans ?_
  have e := tile_inf (fun j' => Spec.dist (Xa m c) (Ya m c) b q j') 0 (by omega)
    (fun j => bdist (xblk m c t) (yblk m c t) q j)
    (fun j j' hj => bdist_blk m c t b hb q j j' (by rw [h0]; exact hj))
  rw [h0, ← e, below_zero, Finset.inf_empty, min_top_left]

/-- After the body at point (b, k) the block holds, at row q, the minimum over the keys below 128 (k + 1) of the
    distance of query q of batch b: by induction over the points. -/
theorem acc_inv (c : Dev nD) (n : ℕ) : ∀ (hn : n < cfg0.N) (b : Fin 8) (hb : b.val = n / 32) (q : Fin 4096),
    acc0 (F := Ideal) (Vr0 m) c n hn (ix3 0 q 0)
      = (below (128 * (n % 32 + 1))).inf fun j' => Spec.dist (Xa m c) (Ya m c) b q j' := by
  induction n with
  | zero => intro hn b hb q; exact acc_first_eq m c ⟨0, hn⟩ rfl b hb q
  | succ n ih =>
    intro hn b hb q
    by_cases h0 : (n + 1) % 32 = 0
    · exact acc_first_eq m c ⟨n + 1, hn⟩ h0 b hb q
    · refine (congrFun (acc0_later (F := Ideal) (Vr0 m) c ⟨n + 1, hn⟩ h0) (ix3 0 q 0)).trans ?_
      refine (pay5_apply _ _ _ q).trans ?_
      show min (acc0 (F := Ideal) (Vr0 m) c n (Nat.lt_of_succ_lt hn) (ix3 0 q 0))
          (Finset.univ.inf fun j : Fin 128 => bdist (xblk m c ⟨n + 1, hn⟩) (yblk m c ⟨n + 1, hn⟩) q j) = _
      rw [ih (Nat.lt_of_succ_lt hn) b (by omega) q]
      have e : n % 32 + 1 = (n + 1) % 32 := by omega
      rw [e]
      exact tile_inf _ ((n + 1) % 32) (by omega) _ fun j j' hj => bdist_blk m c ⟨n + 1, hn⟩ b hb q j j' hj

/-- The array of per-query minima. -/
abbrev G2 (c : Dev nD) : S8x4096x1.Idx → EReal := fun i => nearest1 (Xa m c) (Ya m c) (i 0) (i 1)

/-- The minimum over all 4096 keys is the distance to the nearest key. -/
theorem rowmin_full (c : Dev nD) (b b' : Fin 8) (q q' : Fin 4096) (hb : b'.val = b.val) (hq : q'.val = q.val) :
    ((below (128 * (31 + 1))).inf fun j' => Spec.dist (Xa m c) (Ya m c) b q j') = nearest1 (Xa m c) (Ya m c) b' q' := by
  obtain rfl : b' = b := Fin.ext hb
  obtain rfl : q' = q := Fin.ext hq
  show (below 4096).inf _ = _
  rw [below_all]
  rfl

/-- What the last tile's point of a batch writes back to the per-query array is its block of the array of
    per-query minima. -/
theorem flushed2_eq (c : Dev nD) (t : Fin cfg0.N) (hf : (cfg0.win 2).flush t = true) :
    (dat0 (F := Ideal) (Vr0 m) c).flushed 2 t = ((cfg0.win 2).blk t).view.read (Elt Ideal) (G2 m c) := by
  have h31 : t.val % 32 = 31 := (flush0_2 t).mp hf
  have hN : cfg0.N = 256 := N_0
  have ht : t.val < 256 := hN ▸ t.isLt
  show (cfg0.win 2).cut (grid0.coords t) ((dat0 (F := Ideal) (Vr0 m) c).after 2 t) = _
  rw [after0_2]
  obtain ⟨-, -, -, -, -, -, e0, e1, e2, -⟩ := idx_facts t
  funext y
  obtain ⟨a, q, z, rfl⟩ : ∃ (a : Fin 1) (q : Fin 4096) (z : Fin 1), y = ix3 a q z := ⟨y 0, y 1, y 2, eq_ix3 y⟩
  obtain rfl : a = 0 := Subsingleton.elim _ _
  obtain rfl : z = 0 := Subsingleton.elim _ _
  rw [View.read_apply]
  show acc0 (F := Ideal) (Vr0 m) c t.val t.isLt (ix3 0 q 0) = G2 m c (((cfg0.win 2).blk t).view.emb (ix3 0 q 0))
  refine (acc_inv m c t.val t.isLt ⟨t.val / 32, by omega⟩ rfl q).trans ?_
  rw [h31]
  refine rowmin_full m c _ _ q _ ?_ ?_
  · show win0_2.index t (0 : Fin 3) * 1 + 1 * 0 = t.val / 32; omega
  · show win0_2.index t (1 : Fin 3) * 4096 + 1 * q.val = q.val; omega

/-- An index of the per-query array is in a point's block iff each coordinate is in the block's range. -/
theorem mem_blk2 (t : Fin cfg0.N) (i : S8x4096x1.Idx) :
    i ∈ ((cfg0.win 2).blk t).view.set ↔ ∀ a : Fin 3, win0_2.index t a * S1x4096x1.size a ≤ (i a).val ∧ (i a).val < win0_2.index t a * S1x4096x1.size a + S1x4096x1.size a := by
  show i ∈ ((View.whole main_v0_0).slice (win0_2.rect t)).set ↔ _
  rw [View.set_slice_whole, Rect.mem_set_unit]
  exact Iff.rfl

/-- The per-query minima after the run. -/
theorem min1_final (c : Dev nD) :
    (dat0 (F := Ideal) (Vr0 m) c).arrAt 2 cfg0.N = fun i : S8x4096x1.Idx => nearest1 (Xa m c) (Ya m c) (i 0) (i 1) :=
  (dat0 (F := Ideal) (Vr0 m) c).arrAt_eq_of_cover 2 (G2 m c) (fun t hf => flushed2_eq m c t hf) fun i => by
    have h0 : (i 0).val < 8 := (i 0).isLt
    have h1 : (i 1).val < 4096 := (i 1).isLt
    have h2 : (i 2).val < 1 := (i 2).isLt
    have hN : cfg0.N = 256 := N_0
    have ht : 32 * (i 0).val + 31 < cfg0.N := by omega
    refine ⟨⟨32 * (i 0).val + 31, ht⟩, (flush0_2 _).mpr (by show (32 * (i 0).val + 31) % 32 = 31; omega), ?_⟩
    rw [mem_blk2]
    obtain ⟨-, -, -, -, -, -, e0, e1, e2, -⟩ := idx_facts ⟨32 * (i 0).val + 31, ht⟩
    dsimp only at e0 e1 e2
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 4096 ≤ (i 1).val ∧ (i 1).val < win0_2.index _ (1 : Fin 3) * 4096 + 4096; omega
    | ⟨2, _⟩ => show win0_2.index _ (2 : Fin 3) * 1 ≤ (i 2).val ∧ (i 2).val < win0_2.index _ (2 : Fin 3) * 1 + 1; omega

/-! ## The per-key minima: every point writes back its tile's column minima -/

/-- The array of per-key minima. -/
abbrev G3 (c : Dev nD) : S8x1x4096.Idx → EReal := fun i => nearest2 (Xa m c) (Ya m c) (i 0) (i 2)

/-- The tile's column minimum at column j is the minimum over batch b's queries of the distance to key 128 k + j. -/
theorem colmin_eq (c : Dev nD) (t : Fin cfg0.N) (b : Fin 8) (hb : b.val = t.val / 32) (j : Fin 128) (j' : Fin 4096)
    (hj : j'.val = 128 * (t.val % 32) + j.val) :
    (Finset.univ.inf fun n : Fin 4096 => bdist (xblk m c t) (yblk m c t) n j) = nearest2 (Xa m c) (Ya m c) b j' := by
  unfold nearest2
  exact Finset.inf_congr rfl fun n _ => bdist_blk m c t b hb n j j' hj

/-- What a point writes back to the per-key array is its block of the array of per-key minima. -/
theorem flushed3_eq (c : Dev nD) (t : Fin cfg0.N) :
    (dat0 (F := Ideal) (Vr0 m) c).flushed 3 t = ((cfg0.win 3).blk t).view.read (Elt Ideal) (G3 m c) := by
  show (cfg0.win 3).cut (grid0.coords t) ((dat0 (F := Ideal) (Vr0 m) c).after 3 t) = _
  rw [after0_3]
  obtain ⟨-, -, -, -, -, -, -, -, -, e0, e1, e2⟩ := idx_facts t
  funext y
  obtain ⟨a, b, j, rfl⟩ : ∃ (a : Fin 1) (b : Fin 1) (j : Fin 128), y = ix3 a b j := ⟨y 0, y 1, y 2, eq_ix3 y⟩
  obtain rfl : a = 0 := Subsingleton.elim _ _
  obtain rfl : b = 0 := Subsingleton.elim _ _
  rw [View.read_apply]
  show k0_pay1 (k0_pay6 (xblk m c t) (yblk m c t)) (ix3 0 0 j) = G3 m c (((cfg0.win 3).blk t).view.emb (ix3 0 0 j))
  refine (pay16_apply _ _ j).trans ?_
  refine colmin_eq m c t _ ?_ j _ ?_
  · show win0_3.index t (0 : Fin 3) * 1 + 1 * 0 = t.val / 32; omega
  · show win0_3.index t (2 : Fin 3) * 128 + 1 * j.val = 128 * (t.val % 32) + j.val; omega

/-- An index of the per-key array is in a point's block iff each coordinate is in the block's range. -/
theorem mem_blk3 (t : Fin cfg0.N) (i : S8x1x4096.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0_1).slice (win0_3.rect t)).set ↔ _
  rw [View.set_slice_whole, Rect.mem_set_unit]
  exact Iff.rfl

/-- The per-key minima after the run. -/
theorem min2_final (c : Dev nD) :
    (dat0 (F := Ideal) (Vr0 m) c).arrAt 3 cfg0.N = fun i : S8x1x4096.Idx => nearest2 (Xa m c) (Ya m c) (i 0) (i 2) :=
  (dat0 (F := Ideal) (Vr0 m) c).arrAt_eq_of_cover 3 (G3 m c) (fun t _ => flushed3_eq m c t) fun i => by
    have h0 : (i 0).val < 8 := (i 0).isLt
    have h1 : (i 1).val < 1 := (i 1).isLt
    have h2 : (i 2).val < 4096 := (i 2).isLt
    have hN : cfg0.N = 256 := N_0
    have ht : 32 * (i 0).val + (i 2).val / 128 < cfg0.N := by omega
    refine ⟨⟨32 * (i 0).val + (i 2).val / 128, ht⟩, flush0_3 _, ?_⟩
    rw [mem_blk3]
    obtain ⟨-, -, -, -, -, -, -, -, -, e0, e1, e2⟩ := idx_facts ⟨32 * (i 0).val + (i 2).val / 128, ht⟩
    dsimp only at e0 e1 e2
    intro a
    match a with
    | ⟨0, _⟩ => show win0_3.index _ (0 : Fin 3) * 1 ≤ (i 0).val ∧ (i 0).val < win0_3.index _ (0 : Fin 3) * 1 + 1; omega
    | ⟨1, _⟩ => show win0_3.index _ (1 : Fin 3) * 1 ≤ (i 1).val ∧ (i 1).val < win0_3.index _ (1 : Fin 3) * 1 + 1; omega
    | ⟨2, _⟩ => show win0_3.index _ (2 : Fin 3) * 128 ≤ (i 2).val ∧ (i 2).val < win0_3.index _ (2 : Fin 3) * 128 + 128; omega

end Cert.KernelIdeal.Val

end
-- ==== Proof.KI.ValCos.lean ====
/-
  What region 1 leaves in its result array, at the extended reals: entry (b, 0, 0) is the sum over the 4096 rows
  of batch b of the rows' cosines, divided by 4096.
-/
import proofs.«151054_j3006477107870_1_alg».proof.Proof.KI.Fold
import proofs.«151054_j3006477107870_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Spec

variable (m : (ℓ : Loc nD τ sig) → Buf (Elt Ideal) ℓ)

/-- The two feature arrays as launched. -/
abbrev Fa (c : Dev nD) : Feat := m ((c : Thread nD τ).loc main_arg2)
abbrev Ga (c : Dev nD) : Feat := m ((c : Thread nD τ).loc main_arg3)

/-! ## Layout operations at explicit coordinates -/

/-- An `[a]` array cast to `[a, 1]` reads, at `(i, u)`, the operand at `i`, whatever the unit coordinate `u`. -/
theorem cos_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `p`. -/
theorem cos_broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` array, read at row `n`: the sum of the row's entries. -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (n : Fin a) :
    multiReduction .add [1] ⟨1, ![a]⟩ v acc h hφ hacc (ix1 n) = ∑ e : Fin b, v (ix2 n e) :=
  (Ideal.multiReduction_add_single v acc h hφ hacc (ix1 n)).trans
    (Finset.sum_congr rfl fun e _ => congrArg v (funext fun ax => Fin.ext (match ax with | ⟨0, _⟩ => rfl | ⟨1, _⟩ => rfl)))

/-- The sum down the one column of an `[a, 1]` array: the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ) (u : Fin 1) :
    multiReduction .add [0] ⟨1, ![1]⟩ v acc h hφ hacc (ix1 u) = ∑ n : Fin a, v (ix2 n (0 : Fin 1)) :=
  (Ideal.multiReduction_add_single v acc h hφ hacc (ix1 u)).trans
    (Finset.sum_congr rfl fun n _ => congrArg v (funext fun ax => Fin.ext (match ax with
      | ⟨0, _⟩ => rfl
      | ⟨1, _⟩ => by have := u.isLt; show u.val = 0; omega)))

/-! ## The payload at its one index -/

/-- The kernel's clamped row norms of a block: at row `n`, the square root of the row's sum of squares, clamped
    below at ε. -/
theorem nrmv_apply (x : Vec Ideal S1x4096x32 .f32) (hφ : FKind.Formats .f32)
    (hacc : (0x00000000#32 : BitVec 32) = FKind.add.neutral .f32 hφ) (n : Fin 4096) (u : Fin 1) :
    maximumf (sqrt (shapeCast S4096x1 (multiReduction .add [1] S4096
          (mulf (shapeCast S4096x32 x shapeCasts_S1x4096x32_S4096x32) (shapeCast S4096x32 x shapeCasts_S1x4096x32_S4096x32))
          0x00000000#32 reduces_S4096x32_S4096 hφ hacc) shapeCasts_S4096_S4096x1))
        (broadcast S4096x1 (FloatOps.ofBits (F := Ideal) .f32 0x2B8CBCCC#32)) (ix2 n u)
      = max (Ideal.sqrt (∑ d : Fin 32, x (ix3 (0 : Fin 1) n d) * x (ix3 (0 : Fin 1) n d))) eps := by
  show max (Ideal.sqrt (shapeCast S4096x1 _ shapeCasts_S4096_S4096x1 (ix2 n u))) (Ideal.ofBits .f32 0x2B8CBCCC#32) = _
  rw [cos_shapeCast_a_a1_apply, rowSum_apply]
  unfold eps
  refine congrArg (fun s => max (Ideal.sqrt s) _) (Finset.sum_congr rfl fun d _ => ?_)
  rw [mulf_apply, shapeCast_1ab_ab_apply]

/-- THE PAYLOAD: at its one index, the sum over the block's 4096 rows of the rows' cosines — each row of either
    block divided entrywise by its clamped norm, the two multiplied and summed along the row —, divided by the constant `c4096`. -/
theorem pay_cos (x0 x1 : Vec Ideal S1x4096x32 .f32) (j : S1x1x1.Idx) :
    k1_pay1 (F := Ideal) x0 x1 j
      = Ideal.div (∑ n : Fin 4096, ∑ e : Fin 32,
          Ideal.div (x0 (ix3 (0 : Fin 1) n e)) (max (Ideal.sqrt (∑ d : Fin 32, x0 (ix3 (0 : Fin 1) n d) * x0 (ix3 (0 : Fin 1) n d))) eps)
            * Ideal.div (x1 (ix3 (0 : Fin 1) n e)) (max (Ideal.sqrt (∑ d : Fin 32, x1 (ix3 (0 : Fin 1) n d) * x1 (ix3 (0 : Fin 1) n d))) eps)) c4096 := by
  obtain ⟨u0, u1, u2, rfl⟩ : ∃ u0 u1 u2, j = ix3 u0 u1 u2 := ⟨_, _, _, eq_ix3 j⟩
  unfold k1_pay1
  -- the two outer unit axes, then the quotient by 4096
  refine (shapeCast_ab_1ab_apply _ _ u0 u1 u2).trans ?_
  refine (divf_apply _ _ _).trans ?_
  refine congrArg₂ Ideal.div ?_ rfl
  -- the sum over the rows of the rows' sums
  refine (shapeCast_a_1a_apply _ _ u1 u2).trans ?_
  refine (colSum_apply _ _ _ _ _ u2).trans ?_
  refine Finset.sum_congr rfl fun n _ => ?_
  refine (cos_shapeCast_a_a1_apply _ _ n 0).trans ?_
  refine (rowSum_apply _ _ _ _ _ n).trans ?_
  refine Finset.sum_congr rfl fun e _ => ?_
  -- one entry: the product of the two normalized entries
  refine (mulf_apply _ _ _).trans ?_
  refine congrArg₂ (· * ·) ?_ ?_
  · refine (divf_apply _ _ _).trans ?_
    refine congrArg₂ Ideal.div (shapeCast_1ab_ab_apply _ _ n e) ?_
    refine (cos_broadcastTo_a1_ab_apply _ _ n e).trans ?_
    exact nrmv_apply x0 _ _ n 0
  · refine (divf_apply _ _ _).trans ?_
    refine congrArg₂ Ideal.div (shapeCast_1ab_ab_apply _ _ n e) ?_
    refine (cos_broadcastTo_a1_ab_apply _ _ n e).trans ?_
    exact nrmv_apply x1 _ _ n 0

/-! ## The blocks of the two feature arrays -/

/-- The three windows' index maps over the 8 grid points: each block index is the point on the batch axis and
    zero on the other two. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- Window 0's block at point `t` is batch `t` of the first feature array as launched: entry (0, n, e) of the
    block is entry (t, n, e) of the array. -/
theorem iblk1_0_apply (c : Dev nD) (t : Fin cfg1.N) (b : Fin 8) (hb : b.val = t.val) (n : Fin 4096) (e : Fin 32) :
    iblk1 (Vr2 m) c 0 t (ix3 (0 : Fin 1) n e) = Fa m c (ix3 b n e) := by
  obtain ⟨e0, e1, e2, -⟩ := idx_facts1 t
  show Vr2 m c main_arg2 (((cfg1.win 0).blk t).view.emb (ix3 (0 : Fin 1) n e)) = _
  rw [Vr2_main_arg2]
  refine congrArg (m ((c : Thread nD τ).loc main_arg2)) (funext fun a => Fin.ext ?_)
  match a with
  | ⟨0, _⟩ => show win1_0.index t (0 : Fin 3) * 1 + 1 * 0 = b.val; omega
  | ⟨1, _⟩ => show win1_0.index t (1 : Fin 3) * 4096 + 1 * n.val = n.val; omega
  | ⟨2, _⟩ => show win1_0.index t (2 : Fin 3) * 32 + 1 * e.val = e.val; omega

/-- Likewise window 1's block and the second feature array. -/
theorem iblk1_1_apply (c : Dev nD) (t : Fin cfg1.N) (b : Fin 8) (hb : b.val = t.val) (n : Fin 4096) (e : Fin 32) :
    iblk1 (Vr2 m) c 1 t (ix3 (0 : Fin 1) n e) = Ga m c (ix3 b n e) := by
  obtain ⟨-, -, -, e0, e1, e2, -⟩ := idx_facts1 t
  show Vr2 m c main_arg3 (((cfg1.win 1).blk t).view.emb (ix3 (0 : Fin 1) n e)) = _
  rw [Vr2_main_arg3]
  refine congrArg (m ((c : Thread nD τ).loc main_arg3)) (funext fun a => Fin.ext ?_)
  match a with
  | ⟨0, _⟩ => show win1_1.index t (0 : Fin 3) * 1 + 1 * 0 = b.val; omega
  | ⟨1, _⟩ => show win1_1.index t (1 : Fin 3) * 4096 + 1 * n.val = n.val; omega
  | ⟨2, _⟩ => show win1_1.index t (2 : Fin 3) * 32 + 1 * e.val = e.val; omega

/-! ## The result array -/

/-- What the result array ends holding: at (b, ·, ·), the sum of batch b's row cosines divided by `c4096`. -/
abbrev Gcos (c : Dev nD) : S8x1x1.Idx → EReal :=
  fun i => Ideal.div (∑ n : Fin 4096, cosq (Fa m c) (Ga m c) (i 0) n) c4096

/-- What point `t` writes back is block `t` of that function. -/
theorem flushed1_2_eq (c : Dev nD) (t : Fin cfg1.N) :
    (dat1 (F := Ideal) (Vr2 m) c).flushed 2 t = ((cfg1.win 2).blk t).view.read (Elt Ideal) (Gcos m c) := by
  show (cfg1.win 2).cut (grid1.coords t) ((dat1 (F := Ideal) (Vr2 m) c).after 2 t) = _
  rw [after1_2]
  funext j
  obtain ⟨-, -, -, -, -, -, e6, -, -⟩ := idx_facts1 t
  have hb : (((cfg1.win 2).blk t).view.emb j (0 : Fin 3)).val = t.val := by
    show win1_2.index t (0 : Fin 3) * 1 + 1 * (j 0).val = t.val
    have hj : (j 0).val < 1 := (j 0).isLt
    omega
  show k1_pay1 (iblk1 (Vr2 m) c 0 t) (iblk1 (Vr2 m) c 1 t) j = Gcos m c (((cfg1.win 2).blk t).view.emb j)
  rw [pay_cos]
  simp only [iblk1_0_apply m c t _ hb, iblk1_1_apply m c t _ hb]
  rfl

/-- An index of the result array is in point `t`'s block iff each coordinate is in the block's range on its axis. -/
theorem mem_blk1_2 (t : Fin cfg1.N) (i : S8x1x1.Idx) :
    i ∈ ((cfg1.win 2).blk t).view.set ↔ ∀ a : Fin 3, win1_2.index t a * S1x1x1.size a ≤ (i a).val
      ∧ (i a).val < win1_2.index t a * S1x1x1.size a + S1x1x1.size a := by
  show i ∈ ((View.whole main_v6).slice (win1_2.rect t)).set ↔ _
  rw [View.set_slice_whole, Rect.mem_set_unit]
  exact Iff.rfl

/-- Every index (b, 0, 0) of the result array is in point b's block, and every point writes back. -/
theorem cover1_2 (i : S8x1x1.Idx) :
    ∃ t : Fin cfg1.N, (cfg1.win 2).flush t = true ∧ i ∈ ((cfg1.win 2).blk t).view.set := by
  have h0 : (i 0).val < 8 := (i 0).isLt
  have h1 : (i 1).val < 1 := (i 1).isLt
  have h2 : (i 2).val < 1 := (i 2).isLt
  obtain ⟨t, ht⟩ : ∃ t : Fin cfg1.N, t.val = (i 0).val := ⟨⟨(i 0).val, by rw [show cfg1.N = 8 from N_1]; exact h0⟩, rfl⟩
  obtain ⟨-, -, -, -, -, -, e6, e7, e8⟩ := idx_facts1 t
  refine ⟨t, flush1_2 t, ?_⟩
  rw [mem_blk1_2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 1 ≤ (i 2).val ∧ (i 2).val < win1_2.index t (2 : Fin 3) * 1 + 1; omega

/-- The per-batch mean cosines after the run. -/
theorem cos_final (c : Dev nD) :
    (dat1 (F := Ideal) (Vr2 m) c).arrAt 2 cfg1.N
      = fun i : S8x1x1.Idx => Ideal.div (∑ n : Fin 4096, cosq (Fa m c) (Ga m c) (i 0) n) c4096 := by
  exact (dat1 (F := Ideal) (Vr2 m) c).arrAt_eq_of_cover 2 (Gcos m c) (fun t _ => flushed1_2_eq m c t) cover1_2

end Cert.KernelIdeal.Val

end
-- ==== Proof.KI.Tail.lean ====
/-
  The result of @main from the three arrays the regions leave: the two host stretches sum each array, divide,
  and combine.
-/
import proofs.«151054_j3006477107870_1_alg».proof.Proof.KI.Fold
import proofs.«151054_j3006477107870_1_alg».proof.Proof.Spec
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Spec

variable (m : (ℓ : Loc nD τ sig) → Buf (Elt Ideal) ℓ)

/-- A host sum over every axis, started from the zero literal, read at the extended reals: the sum over every index. -/
theorem hostSum_total {s : Shape} {axes : List (Fin s.rank)} (x : FVec Ideal s .f32) (h' : s.ReducesTo axes S_)
    (hu : 0 < S_.numel) (i : S_.Idx) :
    Host.reduceAdd (F := Ideal) x (constant (F := Ideal) S_ .f32 0x00000000#32) h' hu i = ∑ j : s.Idx, x j := by
  show Ideal.hostReduceAdd h' x (Ideal.ofBits .f32 0x00000000#32) i = _
  rw [Ideal.hostReduceAdd_total h' (fun b => b.elim0) x _ i, Ideal.ofBits_zero_f32, zero_add]

/-- The host's quotient of two arrays at an index, at the extended reals. -/
theorem hostDivf_apply {s : Shape} (a b : FVec Ideal s .f32) (i : s.Idx) : Host.divf a b i = Ideal.div (a i) (b i) := rfl

/-- The result buffer at the end, from the regions' arrays. -/
theorem result_eq (c : Dev nD) :
    W4 (F := Ideal) m c (Proc.devRef .tc main_v12)
      = fun _ => tail (∑ i : S8x4096x1.Idx, (dat0 (F := Ideal) (Vr0 m) c).arrAt 2 cfg0.N i)
          (∑ i : S8x1x4096.Idx, (dat0 (F := Ideal) (Vr0 m) c).arrAt 3 cfg0.N i)
          (Ideal.div (∑ i : S8x1x1.Idx, (dat1 (F := Ideal) (Vr2 m) c).arrAt 2 cfg1.N i) c8) := by
  -- the three arrays the regions leave, at the references the host operations read
  have h2 : (W1 (F := Ideal) m c (Proc.devRef .tc main_v0_0) : S8x4096x1.Idx → EReal)
      = (dat0 (F := Ideal) (Vr0 m) c).arrAt 2 cfg0.N := W1_arr m c 2
  have h3 : (W1 (F := Ideal) m c (Proc.devRef .tc main_v0_1) : S8x1x4096.Idx → EReal)
      = (dat0 (F := Ideal) (Vr0 m) c).arrAt 3 cfg0.N := W1_arr m c 3
  have h6 : (W3 (F := Ideal) m c (Proc.devRef .tc main_v6) : S8x1x1.Idx → EReal)
      = (dat1 (F := Ideal) (Vr2 m) c).arrAt 2 cfg1.N := W3_arr m c 2
  -- the first stretch: the two sums, each over 32768, added
  have e5 : (W3 (F := Ideal) m c (Proc.devRef .tc main_v5) : S_.Idx → EReal)
      = addf (Host.divf (Host.reduceAdd ((dat0 (F := Ideal) (Vr0 m) c).arrAt 2 cfg0.N) (constant (F := Ideal) S_ .f32 0x00000000#32) reducesTo_S8x4096x1_S_d0_1_2 h_S_)
            (constant (F := Ideal) S_ .f32 0x47000000#32))
          (Host.divf (Host.reduceAdd ((dat0 (F := Ideal) (Vr0 m) c).arrAt 3 cfg0.N) (constant (F := Ideal) S_ .f32 0x00000000#32) reducesTo_S8x1x4096_S_d0_1_2 h_S_)
            (constant (F := Ideal) S_ .f32 0x47000000#32)) := by
    rw [W3_of_ne m c main_v5 (by decide)]
    show StableHlo.after hostOps1 (W1 (F := Ideal) m c) (Proc.devRef .tc main_v5) = _
    after_results
    rw [h2, h3]
  show StableHlo.after hostOps2 (W3 (F := Ideal) m c) (Proc.devRef .tc main_v12) = _
  after_results
  rw [e5, h6]
  funext i
  -- at the one index every operation is exact, and each sum over all axes from the zero literal is the total sum
  simp only [addf_apply, mulf_apply, subf_apply, hostDivf_apply, constant_apply, hostSum_total]
  -- the literals' words meet those of the constants in the loss
  rfl

end Cert.KernelIdeal.Val

end
-- ==== Proof.Ref.lean ====
/-
  The reference's result, at the extended reals, as the loss of the specification.
-/
import proofs.«151054_j3006477107870_1_alg».proof.Proof.Gen.ReferenceIdeal.Read
import proofs.«151054_j3006477107870_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Spec

/-! ## The index maps of the distance stages, at an index given by its coordinates -/

theorem idx_sq_left (b : Fin 8) (n j : Fin 4096) (k : Fin 3) :
    idx_main_v1 (idx_main_v2 (idx_main_v8 (ix3 b n j))) k = ix3 b n k :=
  funext fun a => Fin.ext (by match a with | ⟨0, _⟩ => rfl | ⟨1, _⟩ => rfl | ⟨2, _⟩ => rfl)
theorem idx_sq_right (b : Fin 8) (n j : Fin 4096) (k : Fin 3) :
    idx_main_v4 (idx_main_v5 (idx_main_v7 (idx_main_v9 (ix3 b n j)))) k = ix3 b j k :=
  funext fun a => Fin.ext (by match a with | ⟨0, _⟩ => rfl | ⟨1, _⟩ => rfl | ⟨2, _⟩ => rfl)
theorem idx_dot_left (b : Fin 8) (n j : Fin 4096) (k : Fin 3) :
    lidx_main_v6 (ix3 b n j) k = ix3 b n k :=
  funext fun a => Fin.ext (by match a with | ⟨0, _⟩ => rfl | ⟨1, _⟩ => rfl | ⟨2, _⟩ => rfl)
theorem idx_dot_right (b : Fin 8) (n j : Fin 4096) (k : Fin 3) :
    ridx_main_v6 (ix3 b n j) k = ix3 b j k :=
  funext fun a => Fin.ext (by match a with | ⟨0, _⟩ => rfl | ⟨1, _⟩ => rfl | ⟨2, _⟩ => rfl)

/-- The distance array at (b, n, j): the two squared norms broadcast along the other point axis, minus twice the inner
    product, clamped below at ε, under the square root. -/
theorem v16_eq (x0 x1 : Pts) (b : Fin 8) (n j : Fin 4096) :
    val_main_v16 (F := Ideal) x0 x1 (ix3 b n j) = Spec.dist x0 x1 b n j := by
  rw [val_main_v16_apply, val_main_v15_apply, val_main_v13_apply, val_main_v10_apply, val_main_v8_apply,
    val_main_v2_apply, val_main_v1_apply, val_main_v9_apply, val_main_v7_apply, val_main_v5_apply,
    val_main_v4_apply, val_main_v12_apply, val_main_v11_apply, val_main_v6_apply, val_main_v14_apply]
  simp only [idx_sq_left, idx_sq_right, idx_dot_left, idx_dot_right, val_main_v0_apply, val_main_v3_apply,
    val_main_cst_apply, val_main_cst_0_apply, val_main_cst_1_apply, val_main_cst_2_apply, Ideal.ofBits_def,
    Ideal.addf_def, Ideal.subf_def, Ideal.mulf_def, Ideal.maximumf_def, Ideal.hostUnary_sqrt_def,
    Ideal.ofBits_zero_f32, zero_add]
  unfold Spec.dist Spec.sq Spec.dotp Spec.two Spec.eps
  rfl

/-! ## The two minimum reductions -/

/-- The seed of the two minimum reductions, the word of +∞, is the top of the extended reals. -/
theorem ofBits_inf_f32 : Ideal.ofBits .f32 0x7F800000#32 = (⊤ : EReal) := by simp [Ideal.ofBits, Ideal.ieee]

/-- The minimum over the key axis: the fold of min from ⊤ over the keys of the distances of query n. -/
theorem v17_eq (x0 x1 : Pts) (b : Fin 8) (n : Fin 4096) :
    val_main_v17 (F := Ideal) x0 x1 (ix2 b n) = nearest1 x0 x1 b n := by
  have h : S8x4096x4096.Reduces [2] S8x4096 := by decide
  unfold val_main_v17
  refine (Host.reduce_eq_fold_single (FloatOps.minimumf (F := Ideal) (φ := .f32)) _ _
    reducesTo_S8x4096x4096_S8x4096_d2 h h_S_ (ix2 b n)).trans ?_
  have hf : (val_main_v16 (F := Ideal) x0 x1 ∘ h.lift (ix2 b n)) = fun j : Fin 4096 => Spec.dist x0 x1 b n j :=
    funext fun j => by
      show val_main_v16 (F := Ideal) x0 x1 (h.lift (ix2 b n) j) = _
      rw [show h.lift (ix2 b n) j = ix3 b n j from
        funext fun a => Fin.ext (by match a with | ⟨0, _⟩ => rfl | ⟨1, _⟩ => rfl | ⟨2, _⟩ => rfl)]
      exact v16_eq x0 x1 b n j
  have h0 : val_main_cst_3 (F := Ideal) (Shape.Idx.first h_S_) = (⊤ : EReal) := ofBits_inf_f32
  rw [hf, h0]
  rfl

/-- The minimum over the query axis: the fold of min from ⊤ over the queries of the distances to key j. -/
theorem v18_eq (x0 x1 : Pts) (b : Fin 8) (j : Fin 4096) :
    val_main_v18 (F := Ideal) x0 x1 (ix2 b j) = nearest2 x0 x1 b j := by
  have h : S8x4096x4096.Reduces [1] S8x4096 := by decide
  unfold val_main_v18
  refine (Host.reduce_eq_fold_single (FloatOps.minimumf (F := Ideal) (φ := .f32)) _ _
    reducesTo_S8x4096x4096_S8x4096_d1 h h_S_ (ix2 b j)).trans ?_
  have hf : (val_main_v16 (F := Ideal) x0 x1 ∘ h.lift (ix2 b j)) = fun n : Fin 4096 => Spec.dist x0 x1 b n j :=
    funext fun n => by
      show val_main_v16 (F := Ideal) x0 x1 (h.lift (ix2 b j) n) = _
      rw [show h.lift (ix2 b j) n = ix3 b n j from
        funext fun a => Fin.ext (by match a with | ⟨0, _⟩ => rfl | ⟨1, _⟩ => rfl | ⟨2, _⟩ => rfl)]
      exact v16_eq x0 x1 b n j
  have h0 : val_main_cst_4 (F := Ideal) (Shape.Idx.first h_S_) = (⊤ : EReal) := ofBits_inf_f32
  rw [hf, h0]
  rfl

/-! ## The cosine of two feature rows -/

theorem idx_row (b : Fin 8) (n : Fin 4096) (k : Fin 32) : idx_main_v35 (ix2 b n) k = ix3 b n k :=
  funext fun a => Fin.ext (by match a with | ⟨0, _⟩ => rfl | ⟨1, _⟩ => rfl | ⟨2, _⟩ => rfl)
theorem idx_norm_left (b : Fin 8) (n : Fin 4096) (k k' : Fin 32) :
    idx_main_call0_v1 (idx_main_call0_v2 (idx_main_v27 (ix3 b n k))) k' = ix3 b n k' :=
  funext fun a => Fin.ext (by match a with | ⟨0, _⟩ => rfl | ⟨1, _⟩ => rfl | ⟨2, _⟩ => rfl)
theorem idx_norm_right (b : Fin 8) (n : Fin 4096) (k k' : Fin 32) :
    idx_main_call1_v1 (idx_main_call1_v2 (idx_main_v32 (ix3 b n k))) k' = ix3 b n k' :=
  funext fun a => Fin.ext (by match a with | ⟨0, _⟩ => rfl | ⟨1, _⟩ => rfl | ⟨2, _⟩ => rfl)

/-- The row sum of the products of the two normalized feature rows: each entry divided by its row's norm, the square
    root of the row's sum of squares clamped below at ε. -/
theorem v35_eq (x2 x3 : Feat) (b : Fin 8) (n : Fin 4096) :
    val_main_v35 (F := Ideal) x2 x3 (ix2 b n) = cosq x2 x3 b n := by
  rw [val_main_v35_apply]
  simp only [idx_row, val_main_v34_apply, val_main_v28_apply, val_main_v27_apply, val_main_v26_apply,
    val_main_v24_apply, val_main_call0_v2_apply, val_main_call0_v1_apply, val_main_call0_v0_apply,
    val_main_v25_apply, val_main_v33_apply, val_main_v32_apply, val_main_v31_apply, val_main_v29_apply,
    val_main_call1_v2_apply, val_main_call1_v1_apply, val_main_call1_v0_apply, val_main_v30_apply,
    idx_norm_left, idx_norm_right, val_main_cst_11_apply, val_main_call0_cst_apply, val_main_call1_cst_apply,
    val_main_cst_9_apply, val_main_cst_10_apply, Ideal.ofBits_def, Ideal.mulf_def, Ideal.hostDivf_def,
    Ideal.maximumf_def, Ideal.hostUnary_sqrt_def, Ideal.ofBits_zero_f32, zero_add]
  unfold Spec.cosq Spec.nrm Spec.eps
  rfl

/-! ## The scalar stages -/

/-- The reference's result is the loss. -/
theorem ref_result (x0 x1 : Pts) (x2 x3 : Feat) :
    val_main_v41 (F := Ideal) x0 x1 x2 x3
      = fun _ => tail (∑ b : Fin 8, ∑ n : Fin 4096, nearest1 x0 x1 b n) (∑ b : Fin 8, ∑ j : Fin 4096, nearest2 x0 x1 b j)
          (Ideal.div (∑ b : Fin 8, ∑ n : Fin 4096, cosq x2 x3 b n) c32768) := by
  funext i
  rw [val_main_v41_apply, val_main_v39_apply, val_main_v23_apply, val_main_v20_apply, val_main_v19_apply,
    val_main_v22_apply, val_main_v21_apply, val_main_v40_apply, val_main_v38_apply, val_main_v37_apply,
    val_main_v36_apply, sum_idx2 (val_main_v17 (F := Ideal) x0 x1), sum_idx2 (val_main_v18 (F := Ideal) x0 x1),
    sum_idx2 (val_main_v35 (F := Ideal) x2 x3)]
  simp only [v17_eq, v18_eq, v35_eq, val_main_cst_5_apply, val_main_cst_6_apply, val_main_cst_7_apply,
    val_main_cst_8_apply, val_main_cst_12_apply, val_main_cst_13_apply, val_main_cst_14_apply,
    val_main_cst_15_apply, val_main_cst_16_apply, Ideal.ofBits_def, Ideal.addf_def, Ideal.subf_def,
    Ideal.mulf_def, Ideal.hostDivf_def, Ideal.ofBits_zero_f32, zero_add]
  unfold Spec.tail Spec.c09 Spec.c01 Spec.c1 Spec.c32768
  rfl

end Cert.ReferenceIdeal.RefValue

end
-- ==== Proof.Sums.lean ====
/-
  Sums over the index sets of the small shapes, and the law that joins the two programs' means.
-/
import proofs.«151054_j3006477107870_1_alg».proof.Proof.Spec
import Idealize.ShloMosaic.Lib.ValueIdx
import Mathlib.Data.EReal.Operations
import Mathlib.Data.Fintype.BigOperators
import Mathlib.Algebra.BigOperators.Group.Finset.Basic

noncomputable section

namespace Cert.Spec

open Idealize.ShloMosaic Idealize.ShloMosaic.ValueIdx

/-! ## Index sets with an axis of extent one -/

/-- An [a, b, 1] index is its first two coordinates: the last coordinate ranges over one value. -/
def idxEquivAB1 {a b : Nat} : (⟨3, ![a, b, 1]⟩ : Shape).Idx ≃ Fin a × Fin b where
  toFun i := (i 0, i 1)
  invFun p := ix3 p.1 p.2 0
  left_inv i := by
    funext d
    match d with
    | ⟨0, _⟩ => rfl
    | ⟨1, _⟩ => rfl
    | ⟨2, _⟩ => exact Subsingleton.elim (α := Fin 1) _ _
  right_inv _ := rfl

/-- An [a, 1, b] index is its two outer coordinates: the middle coordinate ranges over one value. -/
def idxEquivA1B {a b : Nat} : (⟨3, ![a, 1, b]⟩ : Shape).Idx ≃ Fin a × Fin b where
  toFun i := (i 0, i 2)
  invFun p := ix3 p.1 0 p.2
  left_inv i := by
    funext d
    match d with
    | ⟨0, _⟩ => rfl
    | ⟨1, _⟩ => exact Subsingleton.elim (α := Fin 1) _ _
    | ⟨2, _⟩ => rfl
  right_inv _ := rfl

/-- An [a, 1, 1] index is its first coordinate: the other two range over one value each. -/
def idxEquivA11 {a : Nat} : (⟨3, ![a, 1, 1]⟩ : Shape).Idx ≃ Fin a where
  toFun i := i 0
  invFun p := ix3 p 0 0
  left_inv i := by
    funext d
    match d with
    | ⟨0, _⟩ => rfl
    | ⟨1, _⟩ => exact Subsingleton.elim (α := Fin 1) _ _
    | ⟨2, _⟩ => exact Subsingleton.elim (α := Fin 1) _ _
  right_inv _ := rfl

/-- A sum over the indices of an [a, b, 1] array is the double sum over its first two coordinates. -/
theorem sum_idx_ab1 {a b : Nat} (f : (⟨3, ![a, b, 1]⟩ : Shape).Idx → EReal) :
    ∑ i, f i = ∑ p : Fin a, ∑ q : Fin b, f (ix3 p q 0) := by
  rw [← Equiv.sum_comp (idxEquivAB1 (a := a) (b := b)).symm f, Fintype.sum_prod_type]
  rfl

/-- A sum over the indices of an [a, 1, b] array is the double sum over its outer coordinates. -/
theorem sum_idx_a1b {a b : Nat} (f : (⟨3, ![a, 1, b]⟩ : Shape).Idx → EReal) :
    ∑ i, f i = ∑ p : Fin a, ∑ q : Fin b, f (ix3 p 0 q) := by
  rw [← Equiv.sum_comp (idxEquivA1B (a := a) (b := b)).symm f, Fintype.sum_prod_type]
  rfl

/-- A sum over the indices of an [a, 1, 1] array is the sum over its first coordinate. -/
theorem sum_idx_a11 {a : Nat} (f : (⟨3, ![a, 1, 1]⟩ : Shape).Idx → EReal) :
    ∑ i, f i = ∑ p : Fin a, f (ix3 p 0 0) := by
  rw [← Equiv.sum_comp (idxEquivA11 (a := a)).symm f]
  rfl

/-! ## The divisors as reals -/

/-- The word of c4096 has exponent field 139 and an empty fraction: it denotes 2¹² = 4096. -/
theorem c4096_eq : c4096 = ((4096 : ℝ) : EReal) := by
  unfold c4096
  simp [Ideal.ofBits, Ideal.ieee, -EReal.coe_mul]; norm_num

/-- The word of c8 has exponent field 130 and an empty fraction: it denotes 2³ = 8. -/
theorem c8_eq : c8 = ((8 : ℝ) : EReal) := by
  unfold c8
  simp [Ideal.ofBits, Ideal.ieee, -EReal.coe_mul]; norm_num

/-- The word of c32768 has exponent field 142 and an empty fraction: it denotes 2¹⁵ = 32768. -/
theorem c32768_eq : c32768 = ((32768 : ℝ) : EReal) := by
  unfold c32768
  simp [Ideal.ofBits, Ideal.ieee, -EReal.coe_mul]; norm_num

/-! ## Multiplication by a positive real distributes over extended-real sums -/

/-- For a positive real r, (a + b) · r = a · r + b · r at every pair of extended reals: r keeps each infinity's
    sign, so both sides are ⊥ when either summand is ⊥, else ⊤ when either is ⊤, else the real identity. -/
theorem add_mul_coe_of_pos {r : ℝ} (hr : 0 < r) (a b : EReal) :
    (a + b) * (r : EReal) = a * (r : EReal) + b * (r : EReal) := by
  induction a using EReal.rec <;> induction b using EReal.rec
  · rw [EReal.bot_add, EReal.bot_mul_coe_of_pos hr, EReal.bot_add]
  · rw [EReal.bot_add, EReal.bot_mul_coe_of_pos hr, EReal.bot_add]
  · rw [EReal.bot_add, EReal.bot_mul_coe_of_pos hr, EReal.bot_add]
  · rw [EReal.add_bot, EReal.bot_mul_coe_of_pos hr, EReal.add_bot]
  · rw [← EReal.coe_add, ← EReal.coe_mul, ← EReal.coe_mul, ← EReal.coe_mul, ← EReal.coe_add, add_mul]
  · rw [EReal.coe_add_top, EReal.top_mul_coe_of_pos hr, ← EReal.coe_mul, EReal.coe_add_top]
  · rw [EReal.add_bot, EReal.bot_mul_coe_of_pos hr, EReal.add_bot]
  · rw [EReal.top_add_coe, EReal.top_mul_coe_of_pos hr, ← EReal.coe_mul, EReal.top_add_coe]
  · rw [EReal.top_add_top, EReal.top_mul_coe_of_pos hr, EReal.top_add_top]

/-- Hence multiplication by a positive real passes through every finite sum of extended reals. -/
theorem sum_mul_coe_of_pos {ι : Type*} {r : ℝ} (hr : 0 < r) (S : Finset ι) (t : ι → EReal) :
    (∑ i ∈ S, t i) * (r : EReal) = ∑ i ∈ S, t i * (r : EReal) := by
  classical
  induction S using Finset.induction_on with
  | empty => rw [Finset.sum_empty, Finset.sum_empty, zero_mul]
  | insert i S hi ih => rw [Finset.sum_insert hi, Finset.sum_insert hi, add_mul_coe_of_pos hr, ih]

/-- The mean over 8 batches of the means over 4096 rows is the mean over all 32768 rows: division by a positive
    real distributes over every sum of extended reals. -/
theorem mean_of_means (s : Fin 8 → EReal) :
    Ideal.div (∑ b : Fin 8, Ideal.div (s b) c4096) c8 = Ideal.div (∑ b : Fin 8, s b) c32768 := by
  have h4096 : ∀ b, Ideal.div (s b) c4096 = s b * ((1 / 4096 : ℝ) : EReal) := fun b => by
    rw [c4096_eq, Ideal.div_coe (by norm_num)]
  simp only [h4096]
  rw [c8_eq, c32768_eq, Ideal.div_coe (by norm_num), Ideal.div_coe (by norm_num),
    ← sum_mul_coe_of_pos (by norm_num) Finset.univ s, mul_assoc, ← EReal.coe_mul]
  norm_num

end Cert.Spec

end
-- ==== Proof.Bridge.lean ====
/-
  The two programs compute one loss.

  The kernel's result is the loss of the three arrays its regions leave (the host tail); those arrays are, entry
  by entry, the nearest-key distances, the nearest-query distances and the per-batch mean cosines; a sum over an
  array with a unit axis is the double sum over its other coordinates; and the mean over the 8 batches of the
  means over 4096 rows is the mean over all 32768 rows.  The reference's result is the same loss by its own
  read-back.
-/
import proofs.«151054_j3006477107870_1_alg».proof.Defs
import proofs.«151054_j3006477107870_1_alg».proof.Proof.KI.Run
import proofs.«151054_j3006477107870_1_alg».proof.Proof.KI.ValMin
import proofs.«151054_j3006477107870_1_alg».proof.Proof.KI.ValCos
import proofs.«151054_j3006477107870_1_alg».proof.Proof.KI.Tail
import proofs.«151054_j3006477107870_1_alg».proof.Proof.Ref
import proofs.«151054_j3006477107870_1_alg».proof.Proof.Sums

noncomputable section

namespace Cert.Proof.Bridge

open Idealize.ShloMosaic Idealize.ShloMosaic.TcCoe Idealize.ShloMosaic.ValueIdx Idealize.SL.Sem
open Cert.Spec

section Kernel
open Cert.KernelIdeal Cert.KernelIdeal.Gen Cert.KernelIdeal.Fr Cert.KernelIdeal.Val

variable (m : (ℓ : Loc nD τ sig) → Buf (Elt Ideal) ℓ)

/-- The kernel's result buffer ends at the loss of the launched arrays. -/
theorem kernel_result (c : Dev nD) :
    W4 (F := Ideal) m c (Proc.devRef .tc main_v12)
      = fun _ => tail (∑ b : Fin 8, ∑ n : Fin 4096, nearest1 (Xa m c) (Ya m c) b n)
          (∑ b : Fin 8, ∑ j : Fin 4096, nearest2 (Xa m c) (Ya m c) b j)
          (Ideal.div (∑ b : Fin 8, ∑ n : Fin 4096, cosq (Fa m c) (Ga m c) b n) c32768) := by
  rw [result_eq, min1_final, min2_final, cos_final]
  rw [sum_idx_ab1 (a := 8) (b := 4096), sum_idx_a1b (a := 8) (b := 4096), sum_idx_a11 (a := 8)]
  exact congrArg (fun z => fun _ => tail _ _ z) (mean_of_means fun b => ∑ n : Fin 4096, cosq (Fa m c) (Ga m c) b n)

end Kernel

/-- At the extended reals both programs, run from memories that agree on the arguments, end with the loss of
    the launched arrays in their result buffers, and leave the arguments as launched. -/
theorem algebraic [hK : Cert.KernelIdeal.Facts] [hR : Cert.ReferenceIdeal.Facts] [hP : Cert.Pre_finite_inputs.Facts] :
    Cert.algebraic_KernelIdeal_ReferenceIdeal := by
  intro m ρ m' ρ' _ hagree
  refine ⟨fun c => Cert.KernelIdeal.Fr.W4 (F := Ideal) m c (Proc.devRef .tc Cert.KernelIdeal.main_v12),
    Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Fr.W4 (F := Ideal) m c (Proc.devRef .tc Cert.KernelIdeal.main_v12)
  rw [kernel_result m c, Cert.ReferenceIdeal.Read.val_main_v41_eq, Cert.ReferenceIdeal.RefValue.ref_result,
    (hagree c).1, (hagree c).2.1, (hagree c).2.2.1, (hagree c).2.2.2]
  rfl

end Cert.Proof.Bridge

end
-- ==== Proof.lean ====
/-
  The certificate: a chamfer loss (nearest-neighbour distances between two clouds of 4096 points per batch,
  both directions) plus a cosine loss over 32-entry feature rows, computed by two pipelined kernels and a few
  host operations, against the same loss written with whole-array operations.

  The three frames: each kernel program runs as region, host operations, region, host operations, every region by
  its body obligation (the chamfer body at the first tile of a batch stores its row minima, at a later tile folds
  them into what the block held; the cosine body stores one number), and no step writes an argument; the
  reference is a line of host operations.  No operation of the kernel was rewritten for the idealized reading, so
  the idealization claim is trivial.  The value claim is the bridge: both results are the loss of the specification.
-/
import proofs.«151054_j3006477107870_1_alg».proof.Defs
import proofs.«151054_j3006477107870_1_alg».proof.Proof.Gen.Kernel
import proofs.«151054_j3006477107870_1_alg».proof.Proof.Gen.KernelIdeal
import proofs.«151054_j3006477107870_1_alg».proof.Proof.Gen.ReferenceIdeal
import proofs.«151054_j3006477107870_1_alg».proof.Proof.Gen.Pre_finite_inputs
import proofs.«151054_j3006477107870_1_alg».proof.Proof.Gen.ReferenceIdeal.Run
import proofs.«151054_j3006477107870_1_alg».proof.Proof.K.Run
import proofs.«151054_j3006477107870_1_alg».proof.Proof.KI.Run
import proofs.«151054_j3006477107870_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    fun m ρ _ => (θ_run Cert.ReferenceIdeal.defs _ _).mono (fun _ h c => (h c).2)
      (Cert.ReferenceIdeal.Value.run (F := Ideal) m ρ),
    trivial,
    Cert.Proof.Bridge.algebraic⟩

end Cert.Proof

end
